-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000x128 : Shape := ⟨2, ![640000, 128]⟩
abbrev S2x640000 : Shape := ⟨2, ![2, 640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg2 : IVec S2x640000 32) (main_v48 : IVec S_ 1) (main_v50 : IVec S2x640000 1) : IVec S_ 1 :=
  let main_c_19 : IVec S_ 1 := constantI S_ 1 1#1
  let main_v51 : IVec S_ 1 := (fun x v => Host.reduce IntOp.andi x v reducesTo_S2x640000_S_d0_1 h_S_) main_v50 main_c_19
  let main_v52 : IVec S_ 1 := andi main_v48 main_v51
  let main_c_20 : IVec S_ 32 := constantI S_ 32 20000#32
  let main_v53 : IVec S2x640000 32 := broadcastInDim S2x640000 ![] bcast_S_S2x640000 main_c_20
  let main_v54 : IVec S2x640000 1 := cmpi .slt main_arg2 main_v53
  let main_c_21 : IVec S_ 1 := constantI S_ 1 1#1
  let main_v55 : IVec S_ 1 := (fun x v => Host.reduce IntOp.andi x v reducesTo_S2x640000_S_d0_1 h_S_) main_v54 main_c_21
  let main_v56 : IVec S_ 1 := andi main_v52 main_v55
  main_v56

def fn_part2 {F : FTy → Type} [FloatOps F] (main_arg2 : IVec S2x640000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 4294947296#32
  let main_v49 : IVec S2x640000 32 := broadcastInDim S2x640000 ![] bcast_S_S2x640000 main_c_18
  let main_v50 : IVec S2x640000 1 := cmpi .sge main_arg2 main_v49
  fn_part3 (F := F) main_arg2 main_v48 main_v50

def fn_part1 {F : FTy → Type} [FloatOps F] (main_arg2 : IVec S2x640000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S20000x128 .f32) (main_arg1 : FVec F S640000x128 .f32) (main_arg2 : IVec S2x640000 32) (main_arg3 : FVec F S384x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S20000x128 : Shape := ⟨2, ![20000, 128]⟩
abbrev S640000x128 : Shape := ⟨2, ![640000, 128]⟩
abbrev S2x640000 : Shape := ⟨2, ![2, 640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S2560x128 : Shape := ⟨2, ![2560, 128]⟩
abbrev S2560x384 : Shape := ⟨2, ![2560, 384]⟩
abbrev S1x128 : Shape := ⟨2, ![1, 128]⟩
abbrev S20000 : Shape := ⟨1, ![20000]⟩
abbrev S20000x1 : Shape := ⟨2, ![20000, 1]⟩
abbrev S2000x128 : Shape := ⟨2, ![2000, 128]⟩
abbrev S2000x256 : Shape := ⟨2, ![2000, 256]⟩

abbrev nBuf : Space → Nat
  | .hbm => 79
  | .vmem => 22
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S2x640000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S1, .i32⟩
  | .hbm, ⟨24, _⟩ => ⟨S_, .i32⟩
  | .hbm, ⟨25, _⟩ => ⟨S640000x1, .i32⟩
  | .hbm, ⟨26, _⟩ => ⟨S640000x1, .i1⟩
  | .hbm, ⟨27, _⟩ => ⟨S1x1, .i32⟩
  | .hbm, ⟨28, _⟩ => ⟨S640000x1, .i32⟩
  | .hbm, ⟨29, _⟩ => ⟨S640000x1, .i1⟩
  | .hbm, ⟨30, _⟩ => ⟨S640000x1, .i1⟩
  | .hbm, ⟨31, _⟩ => ⟨S_, .i1⟩
  | .hbm, ⟨32, _⟩ => ⟨S640000, .i1⟩
  | .hbm, ⟨33, _⟩ => ⟨S640000x128, .f32⟩
  | .hbm, ⟨34, _⟩ => ⟨S640000x128, .i1⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S1, .i32⟩
  | .hbm, ⟨47, _⟩ => ⟨S_, .i32⟩
  | .hbm, ⟨48, _⟩ => ⟨S640000x1, .i32⟩
  | .hbm, ⟨49, _⟩ => ⟨S640000x1, .i1⟩
  | .hbm, ⟨50, _⟩ => ⟨S1x1, .i32⟩
  | .hbm, ⟨51, _⟩ => ⟨S640000x1, .i32⟩
  | .hbm, ⟨52, _⟩ => ⟨S640000x1, .i1⟩
  | .hbm, ⟨53, _⟩ => ⟨S640000x1, .i1⟩
  | .hbm, ⟨54, _⟩ => ⟨S_, .i1⟩
  | .hbm, ⟨55, _⟩ => ⟨S640000, .i1⟩
  | .hbm, ⟨56, _⟩ => ⟨S640000x128, .f32⟩
  | .hbm, ⟨57, _⟩ => ⟨S640000x128, .i1⟩
  | .hbm, ⟨58, _⟩ => ⟨S_, .f32⟩
  | .hbm, ⟨59, _⟩ => ⟨S640000x128, .f32⟩
  | .hbm, ⟨60, _⟩ => ⟨S640000x128, .f32⟩
  | .hbm, ⟨61, _⟩ => ⟨S640000x128, .f32⟩
  | .hbm, ⟨62, _⟩ => ⟨S_, .f32⟩
  | .hbm, ⟨63, _⟩ => ⟨S20000x128, .f32⟩
  | .hbm, ⟨64, _⟩ => ⟨S640000x1, .i32⟩
  | .hbm, ⟨65, _⟩ => ⟨S20000x128, .f32⟩
  | .hbm, ⟨66, _⟩ => ⟨S_, .f32⟩
  | .hbm, ⟨67, _⟩ => ⟨S640000, .f32⟩
  | .hbm, ⟨68, _⟩ => ⟨S_, .f32⟩
  | .hbm, ⟨69, _⟩ => ⟨S20000, .f32⟩
  | .hbm, ⟨70, _⟩ => ⟨S640000x1, .i32⟩
  | .hbm, ⟨71, _⟩ => ⟨S20000, .f32⟩
  | .hbm, ⟨72, _⟩ => ⟨S_, .f32⟩
  | .hbm, ⟨73, _⟩ => ⟨S20000, .f32⟩
  | .hbm, ⟨74, _⟩ => ⟨S20000, .f32⟩
  | .hbm, ⟨75, _⟩ => ⟨S20000x1, .f32⟩
  | .hbm, ⟨76, _⟩ => ⟨S20000x128, .f32⟩
  | .hbm, ⟨77, _⟩ => ⟨S20000x128, .f32⟩
  | .hbm, ⟨78, _⟩ => ⟨S20000x128, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S2560x128, .f32⟩
  | .local _ .vmem, ⟨11, _⟩ => ⟨S2560x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S256x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S2000x128, .f32⟩
  | .local _ .vmem, ⟨21, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_cst : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_cst_0 : Ref sig .tc := ⟨.hbm, 66, rfl⟩
abbrev main_v10 : Ref sig .tc := ⟨.hbm, 67, rfl⟩
abbrev main_cst_1 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_cst_2 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2560x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  concatenates_S2560x128_S2560x128_S2560x128_S2560x384_d1 : Shape.Concatenates [S2560x128, S2560x128, S2560x128] S2560x384 1
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S2560x128 : S1x128.Broadcasts S2560x128
  inb_S128x128_S128x128_0_0 : ∀ a, (![0, 0] : Fin 2 → Nat) a + S128x128.size a ≤ S128x128.size a
  h_S128x128 : 0 < S128x128.numel
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  broadcasts_S1x128_S2000x128 : S1x128.Broadcasts S2000x128
  gather_S20000x128_S640000x1_S640000x128_1_0_n_n_0_1_1128_wf : GatherDims.WF S20000x128 S640000x1 S640000x128 [1] [0] [] [0] [] 1 ![1, 128]
  dot_S2560x384_S384x128_S2560x128_1_0_0_1_n_n_wf : DotDims.WF S2560x384 S384x128 S2560x128 [1] [0] [0] [1] [] []
  dot_S2560x128_S128x128_S2560x128_1_0_0_1_n_n_wf : DotDims.WF S2560x128 S128x128 S2560x128 [1] [0] [0] [1] [] []
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S640000x128.size a
  hwx0_0 : ∀ i : grid0.Coords, EltTy.bits .f32 = 32 ∨ (Rect.block (s := S640000x128) S2560x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .f32 = 32 ∨ (Rect.block (s := S640000x128) S2560x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S640000x128.size a
  hwx0_2 : ∀ i : grid0.Coords, EltTy.bits .f32 = 32 ∨ (Rect.block (s := S640000x128) S2560x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2560x128.size a ≤ S640000x128.size a
  hwx0_7 : ∀ i : grid0.Coords, EltTy.bits .f32 = 32 ∨ (Rect.block (s := S640000x128) S2560x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S20000x128.size a
  hwx1_6 : ∀ i : grid1.Coords, EltTy.bits .f32 = 32 ∨ (Rect.block (s := S20000x128) S2000x128.size (cc1_transform_6 i) (hinb1_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S2560x384_S384x128_S2560x128_1_0_0_1_n_n : DotDims S2560x384 S384x128 S2560x128 where
  lhsContracting := [1]
  rhsContracting := [0]
  lhsNonContracting := [0]
  rhsNonContracting := [1]
  lhsBatch := []
  rhsBatch := []
  wf := dot_S2560x384_S384x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg1) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2560x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2560x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x128 : Shape := ⟨2, ![20000, 128]⟩
abbrev S640000x128 : Shape := ⟨2, ![640000, 128]⟩
abbrev S2x640000 : Shape := ⟨2, ![2, 640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S20000 : Shape := ⟨1, ![20000]⟩
abbrev S20000x1 : Shape := ⟨2, ![20000, 1]⟩
abbrev S20000x256 : Shape := ⟨2, ![20000, 256]⟩

abbrev nBuf : Space → Nat
  | .hbm => 87
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S2x640000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x384, .f32⟩
  | .hbm, ⟨34, _⟩ => ⟨S640000x128, .f32⟩
  | .hbm, ⟨35, _⟩ => ⟨S1x128, .f32⟩
  | .hbm, ⟨36, _⟩ => ⟨S640000x128, .f32⟩
  | .hbm, ⟨37, _⟩ => ⟨S640000x128, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S_, .f32⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S1x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S20000x128, .f32⟩
  | .hbm, ⟨54, _⟩ => ⟨S640000x1, .i32⟩
  | .hbm, ⟨55, _⟩ => ⟨S20000x128, .f32⟩
  | .hbm, ⟨56, _⟩ => ⟨S_, .f32⟩
  | .hbm, ⟨57, _⟩ => ⟨S640000, .f32⟩
  | .hbm, ⟨58, _⟩ => ⟨S_, .f32⟩
  | .hbm, ⟨59, _⟩ => ⟨S20000, .f32⟩
  | .hbm, ⟨60, _⟩ => ⟨S640000x1, .i32⟩
  | .hbm, ⟨61, _⟩ => ⟨S20000, .f32⟩
  | .hbm, ⟨62, _⟩ => ⟨S_, .f32⟩
  | .hbm, ⟨63, _⟩ => ⟨S20000, .f32⟩
  | .hbm, ⟨64, _⟩ => ⟨S20000, .f32⟩
  | .hbm, ⟨65, _⟩ => ⟨S20000x1, .f32⟩
  | .hbm, ⟨66, _⟩ => ⟨S20000x128, .f32⟩
  | .hbm, ⟨67, _⟩ => ⟨S20000x128, .f32⟩
  | .hbm, ⟨68, _⟩ => ⟨S20000x256, .f32⟩
  | .hbm, ⟨69, _⟩ => ⟨S20000x128, .f32⟩
  | .hbm, ⟨70, _⟩ => ⟨S1x128, .f32⟩
  | .hbm, ⟨71, _⟩ => ⟨S20000x128, .f32⟩
  | .hbm, ⟨72, _⟩ => ⟨S20000x128, .f32⟩
  | .hbm, ⟨73, _⟩ => ⟨S20000x128, .f32⟩
  | .hbm, ⟨74, _⟩ => ⟨S20000x128, .f32⟩
  | .hbm, ⟨75, _⟩ => ⟨S_, .f32⟩
  | .hbm, ⟨76, _⟩ => ⟨S20000x128, .f32⟩
  | .hbm, ⟨77, _⟩ => ⟨S20000x128, .f32⟩
  | .hbm, ⟨78, _⟩ => ⟨S_, .f32⟩
  | .hbm, ⟨79, _⟩ => ⟨S20000x128, .f32⟩
  | .hbm, ⟨80, _⟩ => ⟨S20000x128, .f32⟩
  | .hbm, ⟨81, _⟩ => ⟨S20000x128, .f32⟩
  | .hbm, ⟨82, _⟩ => ⟨S20000x128, .f32⟩
  | .hbm, ⟨83, _⟩ => ⟨S1x128, .f32⟩
  | .hbm, ⟨84, _⟩ => ⟨S20000x128, .f32⟩
  | .hbm, ⟨85, _⟩ => ⟨S20000x128, .f32⟩
  | .hbm, ⟨86, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S20000x256_S256x128_S20000x128_1_0_0_1_n_n_wf : DotDims.WF S20000x256 S256x128 S20000x128 [1] [0] [0] [1] [] []
  dot_S20000x128_S128x128_S20000x128_1_0_0_1_n_n_wf : DotDims.WF S20000x128 S128x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.Spec.lean ====
/-
  The layer as mathematics, away from any program.  One update is a two-layer perceptron applied row by row with a
  residual:  out[r, q] = res[r, q] + ( Σ_k silu( Σ_l x[r, l] · W1[l, k] + b1[k] ) · W2[k, q] + b2[q] ),
  where silu(z) = z · 1/(1 + e^(-z)) on the extended reals and x is two or three matrices of 128 columns laid side by
  side.  Row r of the result depends on row r of `res` and of `x` only, which is what lets a block of rows be computed
  from the same block of rows of the inputs.
-/
import Idealize.ShloMosaic.PureOps.Ideal
import Idealize.ShloMosaic.Lib.ValueIdx

noncomputable section

namespace Cert.Spec

open Idealize.ShloMosaic Idealize.ShloMosaic.ValueIdx

/-- A matrix of extended reals with `R` rows and `C` columns, as a function of its index. -/
abbrev Mat (R C : ℕ) : Type := (⟨2, ![R, C]⟩ : Shape).Idx → EReal
/-- A vector of extended reals of length `C`. -/
abbrev Row (C : ℕ) : Type := (⟨1, ![C]⟩ : Shape).Idx → EReal

/-- silu(z) = z · σ(z), σ the logistic function. -/
def silu (z : EReal) : EReal := z * Ideal.logistic z

/-- Three matrices of 128 columns side by side: column `l` of the result is column `l % 128` of piece `l / 128`. -/
def cat3 {R : ℕ} (a b c : Mat R 128) : Mat R 384 := fun j =>
  (![a, b, c] ⟨(j 1).val / 128, by have := idx2_lt1 j; omega⟩) (ix2 (j 0) ⟨(j 1).val % 128, Nat.mod_lt _ (by norm_num)⟩)

/-- Two matrices of 128 columns side by side. -/
def cat2 {R : ℕ} (a b : Mat R 128) : Mat R 256 := fun j =>
  (![a, b] ⟨(j 1).val / 128, by have := idx2_lt1 j; omega⟩) (ix2 (j 0) ⟨(j 1).val % 128, Nat.mod_lt _ (by norm_num)⟩)

/-- The perceptron with residual at row `r`, column `q`. -/
def mlpAt {R K : ℕ} (res : Mat R 128) (x : Mat R K) (W1 : Mat K 128) (b1 : Row 128) (W2 : Mat 128 128) (b2 : Row 128)
    (r : Fin R) (q : Fin 128) : EReal :=
  res (ix2 r q) + ((∑ k : Fin 128, silu ((∑ l : Fin K, x (ix2 r l) * W1 (ix2 l k)) + b1 (ix1 k)) * W2 (ix2 k q)) + b2 (ix1 q))

/-- The perceptron with residual, as a matrix. -/
def mlp {R K : ℕ} (res : Mat R 128) (x : Mat R K) (W1 : Mat K 128) (b1 : Row 128) (W2 : Mat 128 128) (b2 : Row 128) :
    Mat R 128 := fun i => mlpAt res x W1 b1 W2 b2 (i 0) (i 1)

theorem mlp_apply {R K : ℕ} (res : Mat R 128) (x : Mat R K) (W1 : Mat K 128) (b1 : Row 128) (W2 : Mat 128 128) (b2 : Row 128)
    (r : Fin R) (q : Fin 128) : mlp res x W1 b1 W2 b2 (ix2 r q) = mlpAt res x W1 b1 W2 b2 r q := rfl

/-- Row locality: if row `p` of `res'`, `x'` is row `r` of `res`, `x`, the results agree there. -/
theorem mlpAt_congr_rows {R R' K : ℕ} (res : Mat R 128) (x : Mat R K) (res' : Mat R' 128) (x' : Mat R' K)
    (W1 : Mat K 128) (b1 : Row 128) (W2 : Mat 128 128) (b2 : Row 128) (r : Fin R) (p : Fin R') (q : Fin 128)
    (hres : res' (ix2 p q) = res (ix2 r q)) (hx : ∀ l : Fin K, x' (ix2 p l) = x (ix2 r l)) :
    mlpAt res' x' W1 b1 W2 b2 p q = mlpAt res x W1 b1 W2 b2 r q := by
  unfold mlpAt
  rw [hres]
  simp only [hx]

theorem cat3_apply {R : ℕ} (a b c : Mat R 128) (r : Fin R) (l : Fin 384) :
    cat3 a b c (ix2 r l) = (![a, b, c] ⟨l.val / 128, by omega⟩) (ix2 r ⟨l.val % 128, Nat.mod_lt _ (by norm_num)⟩) := rfl

theorem cat2_apply {R : ℕ} (a b : Mat R 128) (r : Fin R) (l : Fin 256) :
    cat2 a b (ix2 r l) = (![a, b] ⟨l.val / 128, by omega⟩) (ix2 r ⟨l.val % 128, Nat.mod_lt _ (by norm_num)⟩) := rfl

/-- Row locality of the side-by-side matrices. -/
theorem cat3_congr_rows {R R' : ℕ} (a b c : Mat R 128) (a' b' c' : Mat R' 128) (r : Fin R) (p : Fin R')
    (ha : ∀ q : Fin 128, a' (ix2 p q) = a (ix2 r q)) (hb : ∀ q : Fin 128, b' (ix2 p q) = b (ix2 r q))
    (hc : ∀ q : Fin 128, c' (ix2 p q) = c (ix2 r q)) (l : Fin 384) :
    cat3 a' b' c' (ix2 p l) = cat3 a b c (ix2 r l) := by
  rw [cat3_apply, cat3_apply]
  have hl : l.val / 128 = 0 ∨ l.val / 128 = 1 ∨ l.val / 128 = 2 := by omega
  rcases hl with h | h | h
  · have e : (⟨l.val / 128, by omega⟩ : Fin 3) = 0 := Fin.ext h
    rw [e]; exact ha _
  · have e : (⟨l.val / 128, by omega⟩ : Fin 3) = 1 := Fin.ext h
    rw [e]; exact hb _
  · have e : (⟨l.val / 128, by omega⟩ : Fin 3) = 2 := Fin.ext h
    rw [e]; exact hc _

theorem cat2_congr_rows {R R' : ℕ} (a b : Mat R 128) (a' b' : Mat R' 128) (r : Fin R) (p : Fin R')
    (ha : ∀ q : Fin 128, a' (ix2 p q) = a (ix2 r q)) (hb : ∀ q : Fin 128, b' (ix2 p q) = b (ix2 r q)) (l : Fin 256) :
    cat2 a' b' (ix2 p l) = cat2 a b (ix2 r l) := by
  rw [cat2_apply, cat2_apply]
  have hl : l.val / 128 = 0 ∨ l.val / 128 = 1 := by omega
  rcases hl with h | h
  · have e : (⟨l.val / 128, by omega⟩ : Fin 2) = 0 := Fin.ext h
    rw [e]; exact ha _
  · have e : (⟨l.val / 128, by omega⟩ : Fin 2) = 1 := Fin.ext h
    rw [e]; exact hb _

/-- The f32 word of 1.0 denotes the real 1. -/
theorem ofBits_one_f32 : Ideal.ofBits .f32 0x3F800000#32 = 1 := by
  simp [Ideal.ofBits, Ideal.ieee, -EReal.coe_mul]; norm_num

end Cert.Spec

end
-- ==== Proof.PayloadEdge.lean ====
/-
  The edge kernel's stored value, read index by index: the body's payload of its seven loaded blocks is the perceptron
  with residual (Spec.mlp) of those blocks, the three row blocks laid side by side.
-/
import proofs.«415002_j30107720745191_1_alg».proof.Proof.Gen.KernelIdeal.Skeleton
import proofs.«415002_j30107720745191_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EdgePayload

open Cert.KernelIdeal Cert.KernelIdeal.Gen Idealize.ShloMosaic Idealize.ShloMosaic.ValueIdx

/-! ## The two products: which operand entries a result entry reads -/

private theorem lhsA_0 (i : S2560x128.Idx) (q : dot_S2560x384_S384x128_S2560x128_1_0_0_1_n_n.contr.Idx) :
    (dot_S2560x384_S384x128_S2560x128_1_0_0_1_n_n.lhsIdx i q 0).val = (i 0).val := by
  unfold DotDims.lhsIdx
  rw [dif_neg (show ¬(0 : Fin S2560x384.rank) ∈ dot_S2560x384_S384x128_S2560x128_1_0_0_1_n_n.lhsBatch by decide), dif_pos (show (0 : Fin S2560x384.rank) ∈ dot_S2560x384_S384x128_S2560x128_1_0_0_1_n_n.lhsNonContracting by decide)]
  rfl
private theorem lhsA_1 (i : S2560x128.Idx) (q : dot_S2560x384_S384x128_S2560x128_1_0_0_1_n_n.contr.Idx) :
    (dot_S2560x384_S384x128_S2560x128_1_0_0_1_n_n.lhsIdx i q 1).val = (q ⟨0, by decide⟩).val :=
  dot_S2560x384_S384x128_S2560x128_1_0_0_1_n_n.lhsIdx_val_of_single rfl i q
private theorem rhsA_0 (i : S2560x128.Idx) (q : dot_S2560x384_S384x128_S2560x128_1_0_0_1_n_n.contr.Idx) :
    (dot_S2560x384_S384x128_S2560x128_1_0_0_1_n_n.rhsIdx i q 0).val = (q ⟨0, by decide⟩).val :=
  dot_S2560x384_S384x128_S2560x128_1_0_0_1_n_n.rhsIdx_val_of_single rfl i q
private theorem rhsA_1 (i : S2560x128.Idx) (q : dot_S2560x384_S384x128_S2560x128_1_0_0_1_n_n.contr.Idx) :
    (dot_S2560x384_S384x128_S2560x128_1_0_0_1_n_n.rhsIdx i q 1).val = (i 1).val := by
  unfold DotDims.rhsIdx
  rw [dif_neg (show ¬(1 : Fin S384x128.rank) ∈ dot_S2560x384_S384x128_S2560x128_1_0_0_1_n_n.rhsBatch by decide), dif_pos (show (1 : Fin S384x128.rank) ∈ dot_S2560x384_S384x128_S2560x128_1_0_0_1_n_n.rhsNonContracting by decide)]
  rfl

/-- The first product into a zero accumulator, entry by entry: row `p` of the left operand against column `q` of the right. -/
private theorem matmulA_apply (x : FVec Ideal S2560x384 .bf16) (w : FVec Ideal S384x128 .bf16) (p : Fin 2560) (q : Fin 128) :
    matmul dot_S2560x384_S384x128_S2560x128_1_0_0_1_n_n none x w (constant (F := Ideal) S2560x128 .f32 0x00000000#32) (ix2 p q)
      = ∑ k : Fin 384, x (ix2 p k) * w (ix2 k q) := by
  show FloatOps.matmul dot_S2560x384_S384x128_S2560x128_1_0_0_1_n_n none x w (constant (F := Ideal) S2560x128 .f32 0x00000000#32) (ix2 p q) = _
  rw [Ideal.matmul_constant_zero_apply, ← Equiv.sum_comp (ValueIdx.contrEquiv1 dot_S2560x384_S384x128_S2560x128_1_0_0_1_n_n 384 rfl rfl).symm]
  refine Finset.sum_congr rfl fun k _ => ?_
  have hk := ValueIdx.contrEquiv1_symm_val dot_S2560x384_S384x128_S2560x128_1_0_0_1_n_n 384 rfl rfl k
  have el : dot_S2560x384_S384x128_S2560x128_1_0_0_1_n_n.lhsIdx (ix2 p q) ((ValueIdx.contrEquiv1 dot_S2560x384_S384x128_S2560x128_1_0_0_1_n_n 384 rfl rfl).symm k) = ix2 p k := funext fun a => Fin.ext (by
    match a with
    | ⟨0, _⟩ => exact lhsA_0 _ _
    | ⟨1, _⟩ => exact (lhsA_1 _ _).trans hk)
  have er : dot_S2560x384_S384x128_S2560x128_1_0_0_1_n_n.rhsIdx (ix2 p q) ((ValueIdx.contrEquiv1 dot_S2560x384_S384x128_S2560x128_1_0_0_1_n_n 384 rfl rfl).symm k) = ix2 k q := funext fun a => Fin.ext (by
    match a with
    | ⟨0, _⟩ => exact (rhsA_0 _ _).trans hk
    | ⟨1, _⟩ => exact rhsA_1 _ _)
  rw [el, er]

private theorem lhsB_0 (i : S2560x128.Idx) (q : dot_S2560x128_S128x128_S2560x128_1_0_0_1_n_n.contr.Idx) :
    (dot_S2560x128_S128x128_S2560x128_1_0_0_1_n_n.lhsIdx i q 0).val = (i 0).val := by
  unfold DotDims.lhsIdx
  rw [dif_neg (show ¬(0 : Fin S2560x128.rank) ∈ dot_S2560x128_S128x128_S2560x128_1_0_0_1_n_n.lhsBatch by decide), dif_pos (show (0 : Fin S2560x128.rank) ∈ dot_S2560x128_S128x128_S2560x128_1_0_0_1_n_n.lhsNonContracting by decide)]
  rfl
private theorem lhsB_1 (i : S2560x128.Idx) (q : dot_S2560x128_S128x128_S2560x128_1_0_0_1_n_n.contr.Idx) :
    (dot_S2560x128_S128x128_S2560x128_1_0_0_1_n_n.lhsIdx i q 1).val = (q ⟨0, by decide⟩).val :=
  dot_S2560x128_S128x128_S2560x128_1_0_0_1_n_n.lhsIdx_val_of_single rfl i q
private theorem rhsB_0 (i : S2560x128.Idx) (q : dot_S2560x128_S128x128_S2560x128_1_0_0_1_n_n.contr.Idx) :
    (dot_S2560x128_S128x128_S2560x128_1_0_0_1_n_n.rhsIdx i q 0).val = (q ⟨0, by decide⟩).val :=
  dot_S2560x128_S128x128_S2560x128_1_0_0_1_n_n.rhsIdx_val_of_single rfl i q
private theorem rhsB_1 (i : S2560x128.Idx) (q : dot_S2560x128_S128x128_S2560x128_1_0_0_1_n_n.contr.Idx) :
    (dot_S2560x128_S128x128_S2560x128_1_0_0_1_n_n.rhsIdx i q 1).val = (i 1).val := by
  unfold DotDims.rhsIdx
  rw [dif_neg (show ¬(1 : Fin S128x128.rank) ∈ dot_S2560x128_S128x128_S2560x128_1_0_0_1_n_n.rhsBatch by decide), dif_pos (show (1 : Fin S128x128.rank) ∈ dot_S2560x128_S128x128_S2560x128_1_0_0_1_n_n.rhsNonContracting by decide)]
  rfl

/-- The second product into a zero accumulator, entry by entry. -/
private theorem matmulB_apply (x : FVec Ideal S2560x128 .bf16) (w : FVec Ideal S128x128 .bf16) (p : Fin 2560) (q : Fin 128) :
    matmul dot_S2560x128_S128x128_S2560x128_1_0_0_1_n_n none x w (constant (F := Ideal) S2560x128 .f32 0x00000000#32) (ix2 p q)
      = ∑ k : Fin 128, x (ix2 p k) * w (ix2 k q) := by
  show FloatOps.matmul dot_S2560x128_S128x128_S2560x128_1_0_0_1_n_n none x w (constant (F := Ideal) S2560x128 .f32 0x00000000#32) (ix2 p q) = _
  rw [Ideal.matmul_constant_zero_apply, ← Equiv.sum_comp (ValueIdx.contrEquiv1 dot_S2560x128_S128x128_S2560x128_1_0_0_1_n_n 128 rfl rfl).symm]
  refine Finset.sum_congr rfl fun k _ => ?_
  have hk := ValueIdx.contrEquiv1_symm_val dot_S2560x128_S128x128_S2560x128_1_0_0_1_n_n 128 rfl rfl k
  have el : dot_S2560x128_S128x128_S2560x128_1_0_0_1_n_n.lhsIdx (ix2 p q) ((ValueIdx.contrEquiv1 dot_S2560x128_S128x128_S2560x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S2560x128_S128x128_S2560x128_1_0_0_1_n_n.rhsIdx (ix2 p q) ((ValueIdx.contrEquiv1 dot_S2560x128_S128x128_S2560x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The layout operations at an index -/

/-- A vector of 128 entries as one row, repeated over the 2560 rows: entry `(p, q)` is the vector's entry `q`. -/
private theorem bias_apply (b : FVec Ideal S128 .f32) (h1 : S128.ShapeCasts S1x128) (h2 : S1x128.Broadcasts S2560x128)
    (p : Fin 2560) (q : Fin 128) :
    broadcastTo S2560x128 (shapeCast S1x128 b h1) h2 (ix2 p q) = b (ix1 q) := by
  rw [broadcastTo_1b_ab_apply, shapeCast_a_1a_apply]

/-- Three blocks of 128 columns side by side: column `l` is column `l % 128` of block `l / 128`. -/
private theorem cat_apply (a b c : FVec Ideal S2560x128 .f32)
    (h : Shape.Concatenates [S2560x128, S2560x128, S2560x128] S2560x384 1) (p : Fin 2560) (l : Fin 384) :
    concatenate S2560x384 1 [⟨S2560x128, a⟩, ⟨S2560x128, b⟩, ⟨S2560x128, c⟩] h (ix2 p l) = Cert.Spec.cat3 a b c (ix2 p l) := by
  have hl := l.isLt
  exact concatenate_ofFn_apply (t := S2560x384) (s₁ := S2560x128) 1 ![a, b, c] h rfl 128 rfl (ix2 p l)
    ⟨l.val / 128, by omega⟩ rfl (ix2 p ⟨l.val % 128, Nat.mod_lt _ (by norm_num)⟩) rfl
    (fun d => match d with
      | ⟨0, _⟩ => fun _ => rfl
      | ⟨1, _⟩ => fun hd => absurd rfl hd)

private theorem logistic_apply {s : Shape} {φ : FTy} (a : FVec Ideal s φ) (i : s.Idx) : logistic a i = Ideal.logistic (a i) := rfl

/-! ## The payload -/

theorem k0_pay1_eq (v0 v1 v3 : Vec Ideal S2560x128 .f32) (v6 : Vec Ideal S384x128 .f32) (v7 : Vec Ideal S128 .f32)
    (v16 : Vec Ideal S128x128 .f32) (v17 : Vec Ideal S128 .f32) :
    k0_pay1 (F := Ideal) v0 v1 v3 v6 v7 v16 v17
      = Cert.Spec.mlp (R := 2560) (K := 384) v0 (Cert.Spec.cat3 v0 v1 v3) v6 v7 v16 v17 := by
  funext j
  obtain ⟨p, q, rfl⟩ : ∃ (p : Fin 2560) (q : Fin 128), j = ix2 p q := ⟨j 0, j 1, eq_ix2 j⟩
  rw [Cert.Spec.mlp_apply]
  unfold k0_pay1 Cert.Spec.mlpAt Cert.Spec.silu
  rw [shapeCast_self, shapeCast_self]
  simp only [addf_apply, mulf_apply, truncf_apply, logistic_apply, bias_apply, matmulA_apply, matmulB_apply, cat_apply]

end Cert.KernelIdeal.EdgePayload

end
-- ==== Proof.BlocksEdge.lean ====
/-
  From blocks to the array, edge region: after the region every row block of the output array is the perceptron of the
  same row block of the three row inputs and of the whole weight arrays; the 250 blocks tile the 640000 rows, so the
  array is the perceptron (Spec.mlp) of the whole input arrays as the region found them.
-/
import proofs.«415002_j30107720745191_1_alg».proof.Proof.Gen.KernelIdeal.Frame
import proofs.«415002_j30107720745191_1_alg».proof.Proof.PayloadEdge

set_option maxRecDepth 16384

noncomputable section

namespace Cert.KernelIdeal.EdgeBlocks

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-buffer rectangle, rank 2 and rank 1. -/
private theorem zero2 : (![0, 0] : Fin 2 → Nat) = fun _ => 0 := funext fun a => by fin_cases a <;> rfl
private theorem zero1 : (![0] : Fin 1 → Nat) = fun _ => 0 := funext fun a => by fin_cases a <;> rfl

/-- The printed index maps over the grid: the three row inputs and the output sit at block (t, 0) at point t; the
    weight arrays sit at block 0 on every axis. -/
private theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The grid has 250 points. -/
private theorem points : cfg0.N = 250 := rfl

/-! ## Block reads: an input window's block at point t, read at an index, is its array at the row 2560 t + p -/

/-- Row p, column q of the residual input's block at point t is row 2560 t + p, column q of its array. -/
private theorem read_res (c : Dev nD) (t : Fin cfg0.N) (y : S2560x128.Idx) (i : S640000x128.Idx)
    (h0 : (i 0).val = t.val * 2560 + (y 0).val) (h1 : (i 1).val = (y 1).val) :
    (iblk0 V c 0 t : Vec Ideal S2560x128 .f32) y = (V c main_arg1 : S640000x128.Idx → Elt Ideal .f32) i := by
  obtain ⟨e0, e1, -⟩ := index_facts t
  show V c main_arg1 (((cfg0.win 0).blk t).view.emb y) = V c main_arg1 i
  refine congrArg _ ?_
  funext a; apply Fin.ext
  match a with
  | ⟨0, _⟩ => show win0_0.index t (0 : Fin 2) * 2560 + 1 * (y 0).val = (i 0).val; omega
  | ⟨1, _⟩ => show win0_0.index t (1 : Fin 2) * 128 + 1 * (y 1).val = (i 1).val; omega

/-- The same for the first gathered input. -/
private theorem read_src (c : Dev nD) (t : Fin cfg0.N) (y : S2560x128.Idx) (i : S640000x128.Idx)
    (h0 : (i 0).val = t.val * 2560 + (y 0).val) (h1 : (i 1).val = (y 1).val) :
    (iblk0 V c 1 t : Vec Ideal S2560x128 .f32) y = (V c main_v4 : S640000x128.Idx → Elt Ideal .f32) i := by
  obtain ⟨-, -, e0, e1, -⟩ := index_facts t
  show V c main_v4 (((cfg0.win 1).blk t).view.emb y) = V c main_v4 i
  refine congrArg _ ?_
  funext a; apply Fin.ext
  match a with
  | ⟨0, _⟩ => show win0_1.index t (0 : Fin 2) * 2560 + 1 * (y 0).val = (i 0).val; omega
  | ⟨1, _⟩ => show win0_1.index t (1 : Fin 2) * 128 + 1 * (y 1).val = (i 1).val; omega

/-- The same for the second gathered input. -/
private theorem read_dst (c : Dev nD) (t : Fin cfg0.N) (y : S2560x128.Idx) (i : S640000x128.Idx)
    (h0 : (i 0).val = t.val * 2560 + (y 0).val) (h1 : (i 1).val = (y 1).val) :
    (iblk0 V c 2 t : Vec Ideal S2560x128 .f32) y = (V c main_v5 : S640000x128.Idx → Elt Ideal .f32) i := by
  obtain ⟨-, -, -, -, e0, e1, -⟩ := index_facts t
  show V c main_v5 (((cfg0.win 2).blk t).view.emb y) = V c main_v5 i
  refine congrArg _ ?_
  funext a; apply Fin.ext
  match a with
  | ⟨0, _⟩ => show win0_2.index t (0 : Fin 2) * 2560 + 1 * (y 0).val = (i 0).val; omega
  | ⟨1, _⟩ => show win0_2.index t (1 : Fin 2) * 128 + 1 * (y 1).val = (i 1).val; omega

/-- A weight window's one block is its whole array: first-layer weights, -/
private theorem read_W1 (c : Dev nD) (t : Fin cfg0.N) :
    (iblk0 V c 3 t : Vec Ideal S384x128 .f32) = (V c main_arg3 : S384x128.Idx → Elt Ideal .f32) := by
  obtain ⟨-, -, -, -, -, -, e0, e1, -⟩ := index_facts t
  funext y
  show V c main_arg3 (((cfg0.win 3).blk t).view.emb y) = V c main_arg3 y
  refine congrArg _ ?_
  funext a; apply Fin.ext
  match a with
  | ⟨0, _⟩ => show win0_3.index t (0 : Fin 2) * 384 + 1 * (y 0).val = (y 0).val; omega
  | ⟨1, _⟩ => show win0_3.index t (1 : Fin 2) * 128 + 1 * (y 1).val = (y 1).val; omega

/-- first-layer bias, -/
private theorem read_b1 (c : Dev nD) (t : Fin cfg0.N) :
    (iblk0 V c 4 t : Vec Ideal S128 .f32) = (V c main_arg4 : S128.Idx → Elt Ideal .f32) := by
  obtain ⟨-, -, -, -, -, -, -, -, e0, -⟩ := index_facts t
  funext y
  show V c main_arg4 (((cfg0.win 4).blk t).view.emb y) = V c main_arg4 y
  refine congrArg _ ?_
  funext a; apply Fin.ext
  match a with
  | ⟨0, _⟩ => show win0_4.index t (0 : Fin 1) * 128 + 1 * (y 0).val = (y 0).val; omega

/-- second-layer weights, -/
private theorem read_W2 (c : Dev nD) (t : Fin cfg0.N) :
    (iblk0 V c 5 t : Vec Ideal S128x128 .f32) = (V c main_arg5 : S128x128.Idx → Elt Ideal .f32) := by
  obtain ⟨-, -, -, -, -, -, -, -, -, e0, e1, -⟩ := index_facts t
  funext y
  show V c main_arg5 (((cfg0.win 5).blk t).view.emb y) = V c main_arg5 y
  refine congrArg _ ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- second-layer bias. -/
private theorem read_b2 (c : Dev nD) (t : Fin cfg0.N) :
    (iblk0 V c 6 t : Vec Ideal S128 .f32) = (V c main_arg6 : S128.Idx → Elt Ideal .f32) := by
  obtain ⟨-, -, -, -, -, -, -, -, -, -, -, e0, -⟩ := index_facts t
  funext y
  show V c main_arg6 (((cfg0.win 6).blk t).view.emb y) = V c main_arg6 y
  refine congrArg _ ?_
  funext a; apply Fin.ext
  match a with
  | ⟨0, _⟩ => show win0_6.index t (0 : Fin 1) * 128 + 1 * (y 0).val = (y 0).val; omega

/-! ## Row locality, over any matrices -/

/-- If row (j 0) of three blocks is row (i 0) of three arrays, and the columns agree, the perceptron of the blocks at j is
    the perceptron of the arrays at i. -/
private theorem mlp_rows (A0 A1 A2 : Cert.Spec.Mat 640000 128) (x0 x1 x2 : Cert.Spec.Mat 2560 128)
    (W1 : Cert.Spec.Mat 384 128) (b1 : Cert.Spec.Row 128) (W2 : Cert.Spec.Mat 128 128) (b2 : Cert.Spec.Row 128)
    (j : S2560x128.Idx) (i : S640000x128.Idx) (h1 : i 1 = j 1)
    (r0 : ∀ q : Fin 128, x0 (ix2 (j 0) q) = A0 (ix2 (i 0) q))
    (r1 : ∀ q : Fin 128, x1 (ix2 (j 0) q) = A1 (ix2 (i 0) q))
    (r2 : ∀ q : Fin 128, x2 (ix2 (j 0) q) = A2 (ix2 (i 0) q)) :
    Cert.Spec.mlp x0 (Cert.Spec.cat3 x0 x1 x2) W1 b1 W2 b2 j
      = Cert.Spec.mlp A0 (Cert.Spec.cat3 A0 A1 A2) W1 b1 W2 b2 i := by
  show Cert.Spec.mlpAt x0 (Cert.Spec.cat3 x0 x1 x2) W1 b1 W2 b2 (j 0) (j 1)
    = Cert.Spec.mlpAt A0 (Cert.Spec.cat3 A0 A1 A2) W1 b1 W2 b2 (i 0) (i 1)
  rw [h1]
  exact Cert.Spec.mlpAt_congr_rows A0 (Cert.Spec.cat3 A0 A1 A2) x0 (Cert.Spec.cat3 x0 x1 x2) W1 b1 W2 b2 (i 0) (j 0) (j 1)
    (r0 _) (fun l => Cert.Spec.cat3_congr_rows A0 A1 A2 x0 x1 x2 (i 0) (j 0) r0 r1 r2 l)

/-! ## The write-back, the cover, the array -/

/-- What the output array ends holding: the perceptron of the whole input arrays as the region found them. -/
private abbrev G (c : Dev nD) : S640000x128.Idx → Elt Ideal .f32 :=
  Cert.Spec.mlp (R := 640000) (K := 384) (V c main_arg1) (Cert.Spec.cat3 (V c main_arg1) (V c main_v4) (V c main_v5))
    (V c main_arg3) (V c main_arg4) (V c main_arg5) (V c main_arg6)

/-- What point t writes back is block t of G. -/
private theorem flushed_eq (c : Dev nD) (t : Fin cfg0.N) :
    (dat0 (F := Ideal) V c).flushed 7 t = ((cfg0.win 7).blk t).view.read (Elt Ideal) (G V c) := by
  show (cfg0.win 7).cut (grid0.coords t) ((dat0 V c).after 7 t) = _
  rw [after0_7]
  unfold out0_7
  rw [View.canon_unit_zero zero2]
  simp only [View.ld_unit_zero (S := S2560x128) zero2, View.ld_unit_zero (S := S384x128) zero2,
    View.ld_unit_zero (S := S128x128) zero2, View.ld_unit_zero (S := S128) zero1]
  rw [Cert.KernelIdeal.EdgePayload.k0_pay1_eq, read_W1, read_b1, read_W2, read_b2]
  obtain ⟨-, -, -, -, -, -, -, -, -, -, -, -, e0, e1⟩ := index_facts t
  funext y
  show Cert.Spec.mlp (iblk0 V c 0 t) (Cert.Spec.cat3 (iblk0 V c 0 t) (iblk0 V c 1 t) (iblk0 V c 2 t)) (V c main_arg3)
      (V c main_arg4) (V c main_arg5) (V c main_arg6) y = G V c (((cfg0.win 7).blk t).view.emb y)
  have hi0 : ((((cfg0.win 7).blk t).view.emb y) 0).val = t.val * 2560 + (y 0).val := by
    show win0_7.index t (0 : Fin 2) * 2560 + 1 * (y 0).val = _; omega
  have hi1 : (((cfg0.win 7).blk t).view.emb y) 1 = y 1 :=
    Fin.ext (by show win0_7.index t (1 : Fin 2) * 128 + 1 * (y 1).val = (y 1).val; omega)
  exact mlp_rows (V c main_arg1) (V c main_v4) (V c main_v5) (iblk0 V c 0 t) (iblk0 V c 1 t) (iblk0 V c 2 t)
    (V c main_arg3) (V c main_arg4) (V c main_arg5) (V c main_arg6) y (((cfg0.win 7).blk t).view.emb y) hi1
    (fun q => read_res V c t _ _ hi0 rfl) (fun q => read_src V c t _ _ hi0 rfl) (fun q => read_dst V c t _ _ hi0 rfl)

/-- An index of the array is in point t's block iff each coordinate is in the block's range on its axis. -/
private theorem mem_blk (t : Fin cfg0.N) (i : S640000x128.Idx) :
    i ∈ ((cfg0.win 7).blk t).view.set ↔ ∀ a : Fin 2, win0_7.index t a * S2560x128.size a ≤ (i a).val
      ∧ (i a).val < win0_7.index t a * S2560x128.size a + S2560x128.size a := by
  show i ∈ ((View.whole main_v6).slice (win0_7.rect t)).set ↔ _
  rw [View.set_slice_whole, Rect.mem_set_unit]
  exact Iff.rfl

/-- The blocks tile the array: row r is in the block of point r / 2560. -/
private theorem cover (i : S640000x128.Idx) :
    ∃ t : Fin cfg0.N, (cfg0.win 7).flush t = true ∧ i ∈ ((cfg0.win 7).blk t).view.set := by
  have hi0 : (i 0).val < 640000 := (i 0).isLt
  have hi1 : (i 1).val < 128 := (i 1).isLt
  obtain ⟨t, htv⟩ : ∃ t : Fin cfg0.N, t.val = (i 0).val / 2560 := ⟨⟨(i 0).val / 2560, by rw [points]; omega⟩, rfl⟩
  obtain ⟨-, -, -, -, -, -, -, -, -, -, -, -, e0, e1⟩ := index_facts t
  refine ⟨t, flush0_7 t, ?_⟩
  rw [mem_blk]
  intro a
  match a with
  | ⟨0, _⟩ => show win0_7.index t (0 : Fin 2) * 2560 ≤ (i 0).val ∧ (i 0).val < win0_7.index t (0 : Fin 2) * 2560 + 2560; omega
  | ⟨1, _⟩ => show win0_7.index t (1 : Fin 2) * 128 ≤ (i 1).val ∧ (i 1).val < win0_7.index t (1 : Fin 2) * 128 + 128; omega

theorem final0 (c : Dev nD) :
    (dat0 (F := Ideal) V c).arrAt 7 cfg0.N
      = Cert.Spec.mlp (R := 640000) (K := 384) (V c main_arg1) (Cert.Spec.cat3 (V c main_arg1) (V c main_v4) (V c main_v5))
          (V c main_arg3) (V c main_arg4) (V c main_arg5) (V c main_arg6) := by
  exact (dat0 V c).arrAt_eq_of_cover 7 (G V c) (fun t _ => flushed_eq V c t) cover

end Cert.KernelIdeal.EdgeBlocks

end
-- ==== Proof.PayloadNode.lean ====
/-
  The node kernel's stored value, read index by index: the body's payload of its six loaded blocks is the perceptron
  with residual (Spec.mlp) of those blocks, the two row blocks laid side by side.
-/
import proofs.«415002_j30107720745191_1_alg».proof.Proof.Gen.KernelIdeal.Skeleton
import proofs.«415002_j30107720745191_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodePayload

open Cert.KernelIdeal Cert.KernelIdeal.Gen Idealize.ShloMosaic Idealize.ShloMosaic.ValueIdx

/-! ## The first product, [2000 × 256] · [256 × 128]: the operand indices at output (r, c) and contraction position k are
    (r, k) and (k, c), coordinate by coordinate -/

private theorem lhsA_0 (i : S2000x128.Idx) (c : dot_S2000x256_S256x128_S2000x128_1_0_0_1_n_n.contr.Idx) :
    (dot_S2000x256_S256x128_S2000x128_1_0_0_1_n_n.lhsIdx i c 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
private theorem lhsA_1 (i : S2000x128.Idx) (c : dot_S2000x256_S256x128_S2000x128_1_0_0_1_n_n.contr.Idx) :
    (dot_S2000x256_S256x128_S2000x128_1_0_0_1_n_n.lhsIdx i c 1).val = (c ⟨0, by decide⟩).val :=
  dot_S2000x256_S256x128_S2000x128_1_0_0_1_n_n.lhsIdx_val_of_single rfl i c
private theorem rhsA_0 (i : S2000x128.Idx) (c : dot_S2000x256_S256x128_S2000x128_1_0_0_1_n_n.contr.Idx) :
    (dot_S2000x256_S256x128_S2000x128_1_0_0_1_n_n.rhsIdx i c 0).val = (c ⟨0, by decide⟩).val :=
  dot_S2000x256_S256x128_S2000x128_1_0_0_1_n_n.rhsIdx_val_of_single rfl i c
private theorem rhsA_1 (i : S2000x128.Idx) (c : dot_S2000x256_S256x128_S2000x128_1_0_0_1_n_n.contr.Idx) :
    (dot_S2000x256_S256x128_S2000x128_1_0_0_1_n_n.rhsIdx i c 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The first product into the zero accumulator, at row p and column q: the sum over the 256 contracted positions. -/
private theorem matmulA_apply (x : FVec Ideal S2000x256 .bf16) (w : FVec Ideal S256x128 .bf16) (p : Fin 2000) (q : Fin 128) :
    matmul dot_S2000x256_S256x128_S2000x128_1_0_0_1_n_n none x w (constant (F := Ideal) S2000x128 .f32 0x00000000#32) (ix2 p q)
      = ∑ k : Fin 256, x (ix2 p k) * w (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhsA_0 _ _
    | ⟨1, _⟩ => exact (lhsA_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-! ## The second product, [2000 × 128] · [128 × 128]: the same four coordinate facts -/

private theorem lhsB_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem lhsB_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
private theorem rhsB_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
private theorem rhsB_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The second product into the zero accumulator, at row p and column q: the sum over the 128 contracted positions. -/
private theorem matmulB_apply (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The layout operations at an index -/

/-- The bias: a length-128 vector viewed as one row and repeated down the 2000 rows reads its column's entry. -/
private theorem bias_apply (b : FVec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) (fun a => ?_)).trans ?_
  · match a with
    | ⟨0, _⟩ => rfl
    | ⟨1, _⟩ => rfl
  · refine shapeCast_apply b shapeCasts_S128_S1x128 (ix2 (0 : Fin 1) q) (ix1 q) ?_
    rw [Shape.rowMajor_val_one, Shape.rowMajor_val_two]
    show q.val = 0 * 128 + q.val
    omega

/-- The two row blocks side by side, read at row p and column l: block l / 128 at column l % 128. -/
private theorem concat_apply (v0 v1 : FVec Ideal S2000x128 .f32) (p : Fin 2000) (l : Fin 256) :
    concatenate S2000x256 1 [⟨S2000x128, v0⟩, ⟨S2000x128, shapeCast S2000x128 v1 shapeCasts_S2000x128_S2000x128⟩]
        concatenates_S2000x128_S2000x128_S2000x256_d1 (ix2 p l)
      = Cert.Spec.cat2 v0 v1 (ix2 p l) := by
  rw [shapeCast_self, Cert.Spec.cat2_apply]
  exact concatenate_ofFn_apply (t := S2000x256) (s₁ := S2000x128) 1 (fun n : Fin 2 => (![v0, v1] : Fin 2 → _) n)
    concatenates_S2000x128_S2000x128_S2000x256_d1 rfl 128 rfl (ix2 p l) ⟨l.val / 128, by omega⟩ rfl
    (ix2 p ⟨l.val % 128, Nat.mod_lt _ (by norm_num)⟩) rfl
    (fun b hb => by
      match b with
      | ⟨0, _⟩ => rfl
      | ⟨1, _⟩ => exact absurd rfl hb)

/-- The logistic function is applied entry by entry. -/
private theorem logistic_apply (x : FVec Ideal S2000x128 .f32) (i : S2000x128.Idx) : logistic x i = Ideal.logistic (x i) := rfl

/-- The stored value of the node kernel's body is the perceptron with residual of the loaded blocks: the residual and the
    first 128 input columns are the first row block, the next 128 input columns the second row block. -/
theorem k1_pay1_eq (v0 v1 : Vec Ideal S2000x128 .f32) (v4 : Vec Ideal S256x128 .f32) (v5 : Vec Ideal S128 .f32)
    (v14 : Vec Ideal S128x128 .f32) (v15 : Vec Ideal S128 .f32) :
    k1_pay1 (F := Ideal) v0 v1 v4 v5 v14 v15
      = Cert.Spec.mlp (R := 2000) (K := 256) v0 (Cert.Spec.cat2 v0 v1) v4 v5 v14 v15 := by
  funext j
  obtain ⟨p, q, rfl⟩ : ∃ (p : Fin 2000) (q : Fin 128), j = ix2 p q := ⟨j 0, j 1, eq_ix2 j⟩
  unfold k1_pay1
  -- every operation read at (p, q): the sums, the bias entries and the side-by-side blocks appear
  simp only [addf_apply, mulf_apply, truncf_apply, logistic_apply, matmulA_apply, matmulB_apply, bias_apply, concat_apply]
  -- what is left is the definition of the perceptron with residual at (p, q), silu z being z · σ(z)
  rfl

end Cert.KernelIdeal.NodePayload

end
-- ==== Proof.BlocksNode.lean ====
/-
  From blocks to the array, node region: after the region every row block of the output array is the perceptron of the
  same row block of the two row inputs and of the whole weight arrays; the 10 blocks tile the 20000 rows, so the array
  is the perceptron (Spec.mlp) of the whole input arrays as the region found them.
-/
import proofs.«415002_j30107720745191_1_alg».proof.Proof.Gen.KernelIdeal.Frame
import proofs.«415002_j30107720745191_1_alg».proof.Proof.PayloadNode

set_option maxRecDepth 16384

noncomputable section

namespace Cert.KernelIdeal.NodeBlocks

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block access, rank two and rank one. -/
private theorem zeros2 : (![0, 0] : Fin 2 → Nat) = fun _ => 0 := funext fun a => by fin_cases a <;> rfl
private theorem zeros1 : (![0] : Fin 1 → Nat) = fun _ => 0 := funext fun a => by fin_cases a <;> rfl

/-- What the body leaves in the output's staging buffer: its one whole-block store of the perceptron of the six loaded
    blocks. -/
theorem out_block (x0 x1 : Vec Ideal S2000x128 .f32) (x2 : Vec Ideal S256x128 .f32) (x3 : Vec Ideal S128 .f32)
    (x4 : Vec Ideal S128x128 .f32) (x5 : Vec Ideal S128 .f32) :
    out1_6 (F := Ideal) x0 x1 x2 x3 x4 x5 = Cert.Spec.mlp (R := 2000) (K := 256) x0 (Cert.Spec.cat2 x0 x1) x2 x3 x4 x5 := by
  unfold out1_6
  rw [View.canon_unit_zero zeros2]
  simp only [View.ld_unit_zero (S := S2000x128) zeros2, View.ld_unit_zero (S := S256x128) zeros2,
    View.ld_unit_zero (S := S128) zeros1, View.ld_unit_zero (S := S128x128) zeros2]
  exact Cert.KernelIdeal.NodePayload.k1_pay1_eq x0 x1 x2 x3 x4 x5

/-- The printed index maps over the ten grid points: the three row windows sit at block row t, column block 0; the four
    weight windows at block 0 on every axis. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- A weight window's block at any point is its whole array: block index zero on every axis, block size the array's. -/
theorem block2 (c : Dev nD) (t : Fin cfg1.N) : (iblk1 (F := Ideal) V c 2 t : Vec Ideal S256x128 .f32) = V c main_arg7 := by
  obtain ⟨-, -, -, -, e0, e1, -⟩ := index_facts t
  funext y
  show V c main_arg7 (((cfg1.win 2).blk t).view.emb y) = V c main_arg7 y
  refine congrArg _ (funext fun a => Fin.ext ?_)
  match a with
  | ⟨0, _⟩ => show win1_2.index t (0 : Fin 2) * 256 + 1 * (y 0).val = (y 0).val; omega
  | ⟨1, _⟩ => show win1_2.index t (1 : Fin 2) * 128 + 1 * (y 1).val = (y 1).val; omega

theorem block3 (c : Dev nD) (t : Fin cfg1.N) : (iblk1 (F := Ideal) V c 3 t : Vec Ideal S128 .f32) = V c main_arg8 := by
  obtain ⟨-, -, -, -, -, -, e0, -⟩ := index_facts t
  funext y
  show V c main_arg8 (((cfg1.win 3).blk t).view.emb y) = V c main_arg8 y
  refine congrArg _ (funext fun a => Fin.ext ?_)
  match a with
  | ⟨0, _⟩ => show win1_3.index t (0 : Fin 1) * 128 + 1 * (y 0).val = (y 0).val; omega

theorem block4 (c : Dev nD) (t : Fin cfg1.N) : (iblk1 (F := Ideal) V c 4 t : Vec Ideal S128x128 .f32) = V c main_arg9 := by
  obtain ⟨-, -, -, -, -, -, -, e0, e1, -⟩ := index_facts t
  funext y
  show V c main_arg9 (((cfg1.win 4).blk t).view.emb y) = V c main_arg9 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem block5 (c : Dev nD) (t : Fin cfg1.N) : (iblk1 (F := Ideal) V c 5 t : Vec Ideal S128 .f32) = V c main_arg10 := by
  obtain ⟨-, -, -, -, -, -, -, -, -, e0, -⟩ := index_facts t
  funext y
  show V c main_arg10 (((cfg1.win 5).blk t).view.emb y) = V c main_arg10 y
  refine congrArg _ (funext fun a => Fin.ext ?_)
  match a with
  | ⟨0, _⟩ => show win1_5.index t (0 : Fin 1) * 128 + 1 * (y 0).val = (y 0).val; omega

/-- Row p of a row window's block at point t is row t · 2000 + p of its array. -/
theorem block0 (c : Dev nD) (t : Fin cfg1.N) (p : Fin 2000) (q : Fin 128) (r : Fin 20000) (hr : r.val = t.val * 2000 + p.val) :
    (iblk1 (F := Ideal) V c 0 t : Vec Ideal S2000x128 .f32) (ix2 p q) = V c main_arg0 (ix2 r q) := by
  obtain ⟨e0, e1, -⟩ := index_facts t
  show V c main_arg0 (((cfg1.win 0).blk t).view.emb (ix2 p q)) = V c main_arg0 (ix2 r q)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * q.val = q.val; omega

theorem block1 (c : Dev nD) (t : Fin cfg1.N) (p : Fin 2000) (q : Fin 128) (r : Fin 20000) (hr : r.val = t.val * 2000 + p.val) :
    (iblk1 (F := Ideal) V c 1 t : Vec Ideal S2000x128 .f32) (ix2 p q) = V c main_v18 (ix2 r q) := by
  obtain ⟨-, -, e0, e1, -⟩ := index_facts t
  show V c main_v18 (((cfg1.win 1).blk t).view.emb (ix2 p q)) = V c main_v18 (ix2 r q)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * q.val = q.val; omega

/-- The array the node region ends holding: the perceptron of the arrays as the region found them. -/
abbrev G (c : Dev nD) : Cert.Spec.Mat 20000 128 :=
  Cert.Spec.mlp (R := 20000) (K := 256) (V c main_arg0) (Cert.Spec.cat2 (V c main_arg0) (V c main_v18))
    (V c main_arg7) (V c main_arg8) (V c main_arg9) (V c main_arg10)

theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6, out_block, block2, block3, block4, block5]
  funext j
  obtain ⟨p, q, rfl⟩ : ∃ (p : Fin 2000) (q : Fin 128), j = ix2 p q := ⟨j 0, j 1, eq_ix2 j⟩
  obtain ⟨-, -, -, -, -, -, -, -, -, -, e0, e1⟩ := index_facts t
  have ht : t.val < 10 := t.isLt
  have hr : t.val * 2000 + p.val < 20000 := by have := p.isLt; omega
  have hemb : ((cfg1.win 6).blk t).view.emb (ix2 p q) = ix2 (⟨t.val * 2000 + p.val, hr⟩ : Fin 20000) q :=
    funext fun a => Fin.ext (by
      match a with
      | ⟨0, _⟩ => show win1_6.index t (0 : Fin 2) * 2000 + 1 * p.val = t.val * 2000 + p.val; omega
      | ⟨1, _⟩ => show win1_6.index t (1 : Fin 2) * 128 + 1 * q.val = q.val; omega)
  show Cert.Spec.mlp (R := 2000) (K := 256) (iblk1 V c 0 t) (Cert.Spec.cat2 (iblk1 V c 0 t) (iblk1 V c 1 t))
      (V c main_arg7) (V c main_arg8) (V c main_arg9) (V c main_arg10) (ix2 p q)
    = Cert.Spec.mlp (R := 20000) (K := 256) (V c main_arg0) (Cert.Spec.cat2 (V c main_arg0) (V c main_v18))
        (V c main_arg7) (V c main_arg8) (V c main_arg9) (V c main_arg10) (((cfg1.win 6).blk t).view.emb (ix2 p q))
  rw [hemb, Cert.Spec.mlp_apply, Cert.Spec.mlp_apply]
  exact Cert.Spec.mlpAt_congr_rows _ _ _ _ _ _ _ _ ⟨t.val * 2000 + p.val, hr⟩ p q
    (block0 V c t p q _ rfl)
    (fun l => Cert.Spec.cat2_congr_rows _ _ _ _ ⟨t.val * 2000 + p.val, hr⟩ p
      (fun q' => block0 V c t p q' _ rfl) (fun q' => block1 V c t p q' _ rfl) l)

/-- An index of the array is in point t's block iff each coordinate is in the block's range on its axis. -/
theorem mem_block (t : Fin cfg1.N) (i : S20000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v19).slice (win1_6.rect t)).set ↔ _
  rw [View.set_slice_whole, Rect.mem_set_unit]
  exact Iff.rfl

/-- The ten row blocks tile the 20000 rows: row r lies in the block of point r / 2000. -/
theorem cover (i : S20000x128.Idx) :
    ∃ t : Fin cfg1.N, (cfg1.win 6).flush t = true ∧ i ∈ ((cfg1.win 6).blk t).view.set := by
  have hi0 : (i 0).val < 20000 := (i 0).isLt
  have hi1 : (i 1).val < 128 := (i 1).isLt
  obtain ⟨t, ht⟩ : ∃ t : Fin cfg1.N, t.val = (i 0).val / 2000 :=
    ⟨⟨(i 0).val / 2000, show (i 0).val / 2000 < 10 by omega⟩, rfl⟩
  obtain ⟨-, -, -, -, -, -, -, -, -, -, e0, e1⟩ := index_facts t
  refine ⟨t, flush1_6 t, ?_⟩
  rw [mem_block]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

theorem final1 (c : Dev nD) :
    (dat1 (F := Ideal) V c).arrAt 6 cfg1.N
      = Cert.Spec.mlp (R := 20000) (K := 256) (V c main_arg0) (Cert.Spec.cat2 (V c main_arg0) (V c main_v18))
          (V c main_arg7) (V c main_arg8) (V c main_arg9) (V c main_arg10) := by
  exact (dat1 (F := Ideal) V c).arrAt_eq_of_cover 6 (G V c) (fun t _ => flushed_eq V c t) (cover)

end Cert.KernelIdeal.NodeBlocks

end
-- ==== Proof.TakeSelect.lean ====
/-
  The range test of jnp.take as a pure function of the index vector.  An index word v is first wrapped (v + 20000 where
  v < 0) and laid out as a column; the test is 0 ≤ w ∧ w ≤ 19999 on the wrapped word, reduced by `and` over the unit
  axis and broadcast along the 128 columns of the gathered rows.  Where every word lies in [-20000, 20000) the wrapped word
  lies in [0, 19999], so the test is one everywhere and the selection it drives returns the gathered rows.
-/
import proofs.«415002_j30107720745191_1_alg».proof.Proof.Gen.KernelIdeal
import Idealize.ShloMosaic.Lib.ReduceAll
import Idealize.ShloMosaic.Lib.ValueIdx
import Idealize.ShloMosaic.Lib.StableHlo.Predicate
import Idealize.ShloMosaic.Lib.Pipeline.Value

noncomputable section

namespace Cert.KernelIdeal.TakeSelect

open Cert.KernelIdeal Cert.KernelIdeal.Gen Idealize.ShloMosaic Idealize.ShloMosaic.ValueIdx

/-- The index vector wrapped the numpy way and laid out as a column. -/
def wrapCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 20000#32))) idx)

/-- The range test on a column of (wrapped) indices, one bit per element of the gathered array. -/
def inBounds (w : IVec S640000x1 32) : IVec S640000x128 1 :=
  broadcastInDim S640000x128 ![0] bcast_S640000_S640000x128_0
    (Host.reduce IntOp.andi
      (andi (cmpi .sge w (broadcastInDim S640000x1 ![] bcast_S_S640000x1 (constantI S_ 32 0#32)))
        (cmpi .sle w (broadcastInDim S640000x1 ![0, 1] bcast_S1x1_S640000x1_0_1
          (broadcastInDim S1x1 ![1] bcast_S1_S1x1_1 (constantI S1 32 19999#32)))))
      (constantI S_ 1 1#1) reducesTo_S640000x1_S640000_d1 h_S_)

/-! ## The word facts -/

/-- Adding 20000 to a word in [-20000, 20000) does not wrap. -/
private theorem wrap_range (v : BitVec 32) (h1 : -20000 ≤ v.toInt) (h2 : v.toInt < 20000) :
    (v + 20000#32).toInt = v.toInt + 20000 := by
  rw [BitVec.toInt_add]
  have e : (20000#32 : BitVec 32).toInt = 20000 := by decide
  rw [e, Int.bmod_def]
  norm_num
  split <;> omega

/-- A word in [-20000, 20000), wrapped, passes both comparisons of the range test. -/
private theorem word_in_range (v : BitVec 32) (h1 : -20000 ≤ v.toInt) (h2 : v.toInt < 20000) :
    IntOp.andi (IntOp.cmpi .sge (Scalar.select (IntOp.cmpi .slt v 0#32) (IntOp.addi v 20000#32) v) 0#32)
      (IntOp.cmpi .sle (Scalar.select (IntOp.cmpi .slt v 0#32) (IntOp.addi v 20000#32) v) 19999#32) = 1#1 := by
  have z : (0#32 : BitVec 32).toInt = 0 := by decide
  have m : (19999#32 : BitVec 32).toInt = 19999 := by decide
  rw [IntOp.andi_eq_one, IntOp.cmpi_sge, IntOp.cmpi_sle, z, m]
  by_cases hc : IntOp.cmpi .slt v 0#32 = 1#1
  · have hneg : v.toInt < 0 := by have := IntOp.cmpi_slt.1 hc; rwa [z] at this
    rw [hc, select_one]
    show 0 ≤ (v + 20000#32).toInt ∧ (v + 20000#32).toInt ≤ 19999
    rw [wrap_range v h1 h2]
    omega
  · have hnn : 0 ≤ v.toInt := by
      have : ¬ v.toInt < (0#32 : BitVec 32).toInt := fun hlt => hc (IntOp.cmpi_slt.2 hlt)
      rw [z] at this; omega
    rw [eq_zero_of_ne_one hc, select_zero]
    omega

/-- A left fold by `and` from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A broadcast of a vector whose every word is 1 is 1 at every index. -/
private theorem broadcast_ones {s t : Shape} {dims : Fin s.rank → Fin t.rank} (hb : s.BroadcastsInDim t dims)
    (x : s.Idx → BitVec 1) (hx : ∀ r, x r = 1#1) : broadcastInDim t dims hb x = fun _ => 1#1 :=
  funext fun _ => hx _

/-- Where every index word is a row number in the numpy sense the range test passes everywhere. -/
theorem inBounds_wrapCol (idx : IVec S640000 32) (h : ∀ i : S640000.Idx, -20000 ≤ (idx i).toInt ∧ (idx i).toInt < 20000) :
    inBounds (wrapCol idx) = fun _ => 1#1 := by
  -- every element of the tested column is 1: the two comparisons on the wrapped word
  have hp : ∀ i : S640000x1.Idx,
      andi (cmpi .sge (wrapCol idx) (broadcastInDim S640000x1 ![] bcast_S_S640000x1 (constantI S_ 32 0#32)))
        (cmpi .sle (wrapCol idx) (broadcastInDim S640000x1 ![0, 1] bcast_S1x1_S640000x1_0_1
          (broadcastInDim S1x1 ![1] bcast_S1_S1x1_1 (constantI S1 32 19999#32)))) i = 1#1 := fun i =>
    word_in_range (idx _) (h _).1 (h _).2
  unfold inBounds
  refine broadcast_ones _ _ fun r => ?_
  rw [Host.reduce_eq_foldl]
  exact foldl_andi_ones _ hp _

/-- A selection by an all-ones mask returns its first operand. -/
theorem select_ones {α : Type} (a b : S640000x128.Idx → α) : select (fun _ => (1#1 : BitVec 1)) a b = a := by
  funext i
  exact select_one (a i) (b i)

end Cert.KernelIdeal.TakeSelect

end
-- ==== Proof.EdgeEntry.lean ====
/-
  What the edge region finds on entry.  Before it @main only cuts the index array into its two rows and gathers the
  endpoint rows of the node table (jnp.take: negative indices wrapped, an out-of-range index answered by a fill value).
  The weight, bias and edge arrays are untouched; and where every index word lies in [-20000, 20000) the wrapped index
  lies in [0, 19999], the in-range mask is all ones and each gathered array is the bare gather — the very term the
  reference computes.
-/
import proofs.«415002_j30107720745191_1_alg».proof.Proof.Gen.KernelIdeal.Frame
import proofs.«415002_j30107720745191_1_alg».proof.Proof.Gen.ReferenceIdeal.Read
import proofs.«415002_j30107720745191_1_alg».proof.Proof.TakeSelect
import Idealize.ShloMosaic.Lib.ReduceAll
import Idealize.ShloMosaic.Lib.StableHlo.Predicate
import Idealize.ShloMosaic.Lib.StableHlo.Run

set_option maxRecDepth 16384

noncomputable section

namespace Cert.KernelIdeal.EdgeEntry

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Every index word is a row number in the numpy sense. -/
def InRange (c : Dev nD) : Prop :=
  ∀ i : S2x640000.Idx, -20000 ≤ ((m ((c : Thread nD τ).loc main_arg2) : IVec S2x640000 32) i).toInt
    ∧ ((m ((c : Thread nD τ).loc main_arg2) : IVec S2x640000 32) i).toInt < 20000

/-- What the first take leaves in its result, from any contents on entry whose node table is `table` and whose index
    vector is `idx`: the gathered rows selected by the range test of the wrapped index column, the fill value elsewhere. -/
private theorem take0_result (V : Valuation τ sig (Elt Ideal))
    (table : (⟨S20000x128, .f32⟩ : BufTy).Contents (Elt Ideal)) (idx : IVec S640000 32)
    (htable : V (Proc.devRef .tc main_arg0) = table) (hidx : V (Proc.devRef .tc main_v1) = idx) :
    StableHlo.after hostOps0_1 V (Proc.devRef .tc main_v4)
      = (select (TakeSelect.inBounds (TakeSelect.wrapCol idx))
          (Host.gather gather_S20000x128_S640000x1_S640000x128_1_0_n_n_0_1_1128 table (TakeSelect.wrapCol idx))
          (broadcastInDim S640000x128 ![] bcast_S_S640000x128 (constant (F := Ideal) S_ .f32 0x7FC00000#32))
          : (⟨S640000x128, .f32⟩ : BufTy).Contents (Elt Ideal)) := by
  subst htable hidx
  after_results_simp
  simp only [StableHlo.TRef.ofBuf, StableHlo.TRef.toBuf, cast_eq]
  unfold TakeSelect.inBounds TakeSelect.wrapCol
  rfl

/-- What the second take leaves in its result, from any contents on entry whose node table is `table` and whose index
    vector is `idx`: the gathered rows selected by the range test of the wrapped index column, the fill value elsewhere. -/
private theorem take1_result (V : Valuation τ sig (Elt Ideal))
    (table : (⟨S20000x128, .f32⟩ : BufTy).Contents (Elt Ideal)) (idx : IVec S640000 32)
    (htable : V (Proc.devRef .tc main_arg0) = table) (hidx : V (Proc.devRef .tc main_v3) = idx) :
    StableHlo.after hostOps0_2 V (Proc.devRef .tc main_v5)
      = (select (TakeSelect.inBounds (TakeSelect.wrapCol idx))
          (Host.gather gather_S20000x128_S640000x1_S640000x128_1_0_n_n_0_1_1128 table (TakeSelect.wrapCol idx))
          (broadcastInDim S640000x128 ![] bcast_S_S640000x128 (constant (F := Ideal) S_ .f32 0x7FC00000#32))
          : (⟨S640000x128, .f32⟩ : BufTy).Contents (Elt Ideal)) := by
  subst htable hidx
  after_results_simp
  simp only [StableHlo.TRef.ofBuf, StableHlo.TRef.toBuf, cast_eq]
  unfold TakeSelect.inBounds TakeSelect.wrapCol
  rfl

open Cert.ReferenceIdeal.Read in
/-- Under the range hypothesis each row of the index array, cut out and flattened, is a vector of row numbers. -/
private theorem row0_range (x2 : IVec S2x640000 32)
    (h : ∀ i : S2x640000.Idx, -20000 ≤ (x2 i).toInt ∧ (x2 i).toInt < 20000) (i : S640000.Idx) :
    -20000 ≤ ((val_main_v1 (F := Ideal) x2 : IVec S640000 32) i).toInt
      ∧ ((val_main_v1 (F := Ideal) x2 : IVec S640000 32) i).toInt < 20000 := by
  have e : (val_main_v1 (F := Ideal) x2 : IVec S640000 32) i = x2 (idx_main_v0 (idx_main_v1 i)) :=
    (val_main_v1_apply (F := Ideal) x2 i).trans (val_main_v0_apply (F := Ideal) x2 _)
  rw [e]; exact h _

open Cert.ReferenceIdeal.Read in
private theorem row1_range (x2 : IVec S2x640000 32)
    (h : ∀ i : S2x640000.Idx, -20000 ≤ (x2 i).toInt ∧ (x2 i).toInt < 20000) (i : S640000.Idx) :
    -20000 ≤ ((val_main_v3 (F := Ideal) x2 : IVec S640000 32) i).toInt
      ∧ ((val_main_v3 (F := Ideal) x2 : IVec S640000 32) i).toInt < 20000 := by
  have e : (val_main_v3 (F := Ideal) x2 : IVec S640000 32) i = x2 (idx_main_v2 (idx_main_v3 i)) :=
    (val_main_v3_apply (F := Ideal) x2 i).trans (val_main_v2_apply (F := Ideal) x2 _)
  rw [e]; exact h _

/-- After the index array is cut, the source row's buffer holds the flattened first row. -/
private theorem W1_main_v1 (c : Dev nD) :
    W1 m ρ c (Proc.devRef .tc main_v1)
      = Cert.ReferenceIdeal.Read.val_main_v1 (F := Ideal) (m ((c : Thread nD τ).loc main_arg2)) := by
  show StableHlo.after hostOps0 (W0 m ρ c) (Proc.devRef .tc main_v1) = _
  after_results
  rfl

/-- … and the destination row's buffer the flattened second row. -/
private theorem W1_main_v3 (c : Dev nD) :
    W1 m ρ c (Proc.devRef .tc main_v3)
      = Cert.ReferenceIdeal.Read.val_main_v3 (F := Ideal) (m ((c : Thread nD τ).loc main_arg2)) := by
  show StableHlo.after hostOps0 (W0 m ρ c) (Proc.devRef .tc main_v3) = _
  after_results
  rfl

/-- The first take does not write the destination row's buffer. -/
private theorem W2_main_v3 (c : Dev nD) :
    W2 m ρ c (Proc.devRef .tc main_v3) = W1 m ρ c (Proc.devRef .tc main_v3) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- Cutting the index array does not write the node table. -/
private theorem W1_main_arg0 (c : Dev nD) :
    W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : W1 m ρ c (Proc.devRef .tc main_arg0) = W0 m ρ c (Proc.devRef .tc main_arg0))

/-- Nor does the first take. -/
private theorem W2_main_arg0 (c : Dev nD) :
    W2 m ρ c (Proc.devRef .tc main_arg0) = m ((c : Thread nD τ).loc main_arg0) :=
  (StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : W2 m ρ c (Proc.devRef .tc main_arg0) = W1 m ρ c (Proc.devRef .tc main_arg0)).trans
    (W1_main_arg0 m ρ c)

theorem V3_main_v4 (c : Dev nD) (hr : InRange m c) :
    V3 m ρ c main_v4 = Cert.ReferenceIdeal.Read.val_main_v10 (F := Ideal) (m ((c : Thread nD τ).loc main_arg0)) (m ((c : Thread nD τ).loc main_arg2)) := by
  have e3 : V3 m ρ c main_v4 = W2 m ρ c (Proc.devRef .tc main_v4) :=
    StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
  rw [e3]
  show StableHlo.after hostOps0_1 (W1 m ρ c) (Proc.devRef .tc main_v4) = _
  rw [take0_result (W1 m ρ c) _ _ (W1_main_arg0 m ρ c) (W1_main_v1 m ρ c),
    TakeSelect.inBounds_wrapCol _ (row0_range _ hr), TakeSelect.select_ones]
  unfold Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_c_0
    Cert.ReferenceIdeal.Read.val_main_v5 Cert.ReferenceIdeal.Read.val_main_v4 Cert.ReferenceIdeal.Read.val_main_c
    TakeSelect.wrapCol
  rfl

theorem V3_main_v5 (c : Dev nD) (hr : InRange m c) :
    V3 m ρ c main_v5 = Cert.ReferenceIdeal.Read.val_main_v17 (F := Ideal) (m ((c : Thread nD τ).loc main_arg0)) (m ((c : Thread nD τ).loc main_arg2)) := by
  show StableHlo.after hostOps0_2 (W2 m ρ c) (Proc.devRef .tc main_v5) = _
  rw [take1_result (W2 m ρ c) _ _ (W2_main_arg0 m ρ c) ((W2_main_v3 m ρ c).trans (W1_main_v3 m ρ c)),
    TakeSelect.inBounds_wrapCol _ (row1_range _ hr), TakeSelect.select_ones]
  unfold Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_c_2
    Cert.ReferenceIdeal.Read.val_main_v12 Cert.ReferenceIdeal.Read.val_main_v11 Cert.ReferenceIdeal.Read.val_main_c_1
    TakeSelect.wrapCol
  rfl

end Cert.KernelIdeal.EdgeEntry

end
-- ==== Proof.EdgeKept.lean ====
/-
  What the edge region finds on entry, the part no earlier operation touches: the host operations before region 0 write
  only the two rows of the index array and the buffers of the two gathers, so the edge features, the weights and the
  biases are what they were at launch, and the destination row of the index array is the reshaped slice of it.
-/
import proofs.«415002_j30107720745191_1_alg».proof.Proof.Gen.KernelIdeal.Frame
import proofs.«415002_j30107720745191_1_alg».proof.Proof.Gen.ReferenceIdeal.Read
import Idealize.ShloMosaic.Lib.StableHlo.Run

set_option maxRecDepth 16384

noncomputable section

namespace Cert.KernelIdeal.EdgeEntry

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- A stretch of host operations leaves a buffer alone when none of its operations has that buffer as its result: the
    stretch's operations are listed, each one's written set is the singleton of its result, and the result differs from
    the buffer as a reference. -/
local macro "unwritten " ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem V3_main_arg1 (c : Dev nD) : V3 m ρ c main_arg1 = m ((c : Thread nD τ).loc main_arg1) :=
  calc V3 m ρ c main_arg1
    _ = W2 m ρ c (Proc.devRef .tc main_arg1) := by unwritten hostOps0_2 main_arg1
    _ = W1 m ρ c (Proc.devRef .tc main_arg1) := by unwritten hostOps0_1 main_arg1
    _ = W0 m ρ c (Proc.devRef .tc main_arg1) := by unwritten hostOps0 main_arg1
    _ = m ((c : Thread nD τ).loc main_arg1) := rfl
theorem V3_main_arg3 (c : Dev nD) : V3 m ρ c main_arg3 = m ((c : Thread nD τ).loc main_arg3) :=
  calc V3 m ρ c main_arg3
    _ = W2 m ρ c (Proc.devRef .tc main_arg3) := by unwritten hostOps0_2 main_arg3
    _ = W1 m ρ c (Proc.devRef .tc main_arg3) := by unwritten hostOps0_1 main_arg3
    _ = W0 m ρ c (Proc.devRef .tc main_arg3) := by unwritten hostOps0 main_arg3
    _ = m ((c : Thread nD τ).loc main_arg3) := rfl
theorem V3_main_arg4 (c : Dev nD) : V3 m ρ c main_arg4 = m ((c : Thread nD τ).loc main_arg4) :=
  calc V3 m ρ c main_arg4
    _ = W2 m ρ c (Proc.devRef .tc main_arg4) := by unwritten hostOps0_2 main_arg4
    _ = W1 m ρ c (Proc.devRef .tc main_arg4) := by unwritten hostOps0_1 main_arg4
    _ = W0 m ρ c (Proc.devRef .tc main_arg4) := by unwritten hostOps0 main_arg4
    _ = m ((c : Thread nD τ).loc main_arg4) := rfl
theorem V3_main_arg5 (c : Dev nD) : V3 m ρ c main_arg5 = m ((c : Thread nD τ).loc main_arg5) :=
  calc V3 m ρ c main_arg5
    _ = W2 m ρ c (Proc.devRef .tc main_arg5) := by unwritten hostOps0_2 main_arg5
    _ = W1 m ρ c (Proc.devRef .tc main_arg5) := by unwritten hostOps0_1 main_arg5
    _ = W0 m ρ c (Proc.devRef .tc main_arg5) := by unwritten hostOps0 main_arg5
    _ = m ((c : Thread nD τ).loc main_arg5) := rfl
theorem V3_main_arg6 (c : Dev nD) : V3 m ρ c main_arg6 = m ((c : Thread nD τ).loc main_arg6) :=
  calc V3 m ρ c main_arg6
    _ = W2 m ρ c (Proc.devRef .tc main_arg6) := by unwritten hostOps0_2 main_arg6
    _ = W1 m ρ c (Proc.devRef .tc main_arg6) := by unwritten hostOps0_1 main_arg6
    _ = W0 m ρ c (Proc.devRef .tc main_arg6) := by unwritten hostOps0 main_arg6
    _ = m ((c : Thread nD τ).loc main_arg6) := rfl

/-- The destination row of the index array, as region 0 finds it (and as every later stretch reads it). -/
theorem V3_main_v3 (c : Dev nD) :
    V3 m ρ c main_v3 = Cert.ReferenceIdeal.Read.val_main_v3 (F := Ideal) (m ((c : Thread nD τ).loc main_arg2)) :=
  calc V3 m ρ c main_v3
    _ = W2 m ρ c (Proc.devRef .tc main_v3) := by unwritten hostOps0_2 main_v3
    _ = W1 m ρ c (Proc.devRef .tc main_v3) := by unwritten hostOps0_1 main_v3
    _ = Cert.ReferenceIdeal.Read.val_main_v3 (F := Ideal) (m ((c : Thread nD τ).loc main_arg2)) := by
      show StableHlo.after hostOps0 _ (Proc.devRef .tc main_v3) = _
      after_results
      unfold Cert.ReferenceIdeal.Read.val_main_v3 Cert.ReferenceIdeal.Read.val_main_v2
      rfl

end Cert.KernelIdeal.EdgeEntry

end
-- ==== Proof.RefValue.lean ====
/-
  The reference, stage by stage, is the same mathematics: its updated edge features are the perceptron with residual
  (Spec.mlp) of the edge features beside the two gathered endpoint rows, and its updated node features the perceptron
  of the node features beside the aggregated edge features.  The aggregation (a scatter-add by destination divided by
  the clamped in-degree) is kept as one function `agg` of the edge array: both programs apply it, neither proof opens it.
-/
import proofs.«415002_j30107720745191_1_alg».proof.Proof.Gen.ReferenceIdeal.Read
import proofs.«415002_j30107720745191_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Mean aggregation by destination: the scatter-add of the edge rows into their destination nodes, divided by the
    in-degree clamped below at one. -/
def agg {F : FTy → Type} [FloatOps F] (x2 : (⟨S2x640000, .i32⟩ : BufTy).Contents (Elt F)) (e : (⟨S640000x128, .f32⟩ : BufTy).Contents (Elt F)) :
    (⟨S20000x128, .f32⟩ : BufTy).Contents (Elt F) :=
  Host.divf (Host.scatterAdd scatter_S20000x128_S640000x1_S640000x128_1_0_0_1 (val_main_v29 (F := F)) (val_main_v30 (F := F) x2) e)
    (val_main_v39 (F := F) x2)

theorem v40_eq {F : FTy → Type} [FloatOps F] (x0 : (⟨S20000x128, .f32⟩ : BufTy).Contents (Elt F)) (x1 : (⟨S640000x128, .f32⟩ : BufTy).Contents (Elt F)) (x2 : (⟨S2x640000, .i32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) :
    val_main_v40 (F := F) x0 x1 x2 x3 x4 x5 x6 = agg x2 (val_main_v28 (F := F) x0 x1 x2 x3 x4 x5 x6) := by
  unfold val_main_v40 val_main_v31 agg
  rfl

/-- The word of 1.0 and the host's expansion of the logistic function: z · (1 / (1 + e^(-z))) is silu(z). -/
private theorem silu_host (z : EReal) :
    FloatOps.mulf (F := Ideal) (φ := .f32) z
        (FloatOps.hostDivf (F := Ideal) (φ := .f32) (FloatOps.ofBits (F := Ideal) .f32 0x3F800000#32)
          (FloatOps.addf (F := Ideal) (φ := .f32) (FloatOps.ofBits (F := Ideal) .f32 0x3F800000#32)
            (FloatOps.hostUnary (F := Ideal) (φ := .f32) .exp (FloatOps.hostNegf (F := Ideal) (φ := .f32) z))))
      = Cert.Spec.silu z := by
  rw [Ideal.ofBits_def, Cert.Spec.ofBits_one_f32]
  rfl

/-- Three matrices of 128 columns joined along the columns: column l of the result is column l % 128 of piece l / 128. -/
private theorem concat3_eq (a b c : (⟨S640000x128, .f32⟩ : BufTy).Contents (Elt Ideal)) :
    concatenate S640000x384 1 [⟨S640000x128, a⟩, ⟨S640000x128, b⟩, ⟨S640000x128, c⟩]
      concatenates_S640000x128_S640000x128_S640000x128_S640000x384_d1 = Cert.Spec.cat3 a b c := by
  funext j
  have h3 : (j 1).val / 128 < 3 := by have := idx2_lt1 j; omega
  exact concatenate_ofFn_apply (t := S640000x384) (s₁ := S640000x128) (1 : Fin 2) (N := 3) ![a, b, c]
    concatenates_S640000x128_S640000x128_S640000x128_S640000x384_d1 rfl 128 rfl j ⟨(j 1).val / 128, h3⟩ rfl
    (ix2 (j 0) ⟨(j 1).val % 128, Nat.mod_lt _ (by norm_num)⟩) rfl
    (fun b hb => by
      match b with
      | ⟨0, _⟩ => rfl
      | ⟨1, _⟩ => exact absurd rfl hb)

/-- The joined edge input is the edge features beside the two gathered endpoint rows. -/
private theorem v18_eq (x0 : (⟨S20000x128, .f32⟩ : BufTy).Contents (Elt Ideal)) (x1 : (⟨S640000x128, .f32⟩ : BufTy).Contents (Elt Ideal)) (x2 : (⟨S2x640000, .i32⟩ : BufTy).Contents (Elt Ideal)) :
    val_main_v18 (F := Ideal) x0 x1 x2 = Cert.Spec.cat3 x1 (val_main_v10 (F := Ideal) x0 x2) (val_main_v17 (F := Ideal) x0 x2) := by
  unfold val_main_v18
  generalize val_main_v10 (F := Ideal) x0 x2 = g1
  generalize val_main_v17 (F := Ideal) x0 x2 = g2
  exact concat3_eq x1 g1 g2

/-- The first layer before the activation, at row p and hidden column k. -/
private theorem v22_at (x0 : (⟨S20000x128, .f32⟩ : BufTy).Contents (Elt Ideal)) (x1 : (⟨S640000x128, .f32⟩ : BufTy).Contents (Elt Ideal)) (x2 : (⟨S2x640000, .i32⟩ : BufTy).Contents (Elt Ideal)) (x3 : (⟨S384x128, .f32⟩ : BufTy).Contents (Elt Ideal)) (x4 : (⟨S128, .f32⟩ : BufTy).Contents (Elt Ideal)) (p : Fin 640000) (k : Fin 128) :
    val_main_v22 (F := Ideal) x0 x1 x2 x3 x4 (ix2 p k)
      = (∑ l : Fin 384, Cert.Spec.cat3 x1 (val_main_v10 (F := Ideal) x0 x2) (val_main_v17 (F := Ideal) x0 x2) (ix2 p l) * x3 (ix2 l k)) + x4 (ix1 k) := by
  rw [val_main_v22_apply, val_main_v19_apply, val_main_v21_apply, val_main_v20_apply, v18_eq]
  generalize Cert.Spec.cat3 x1 (val_main_v10 (F := Ideal) x0 x2) (val_main_v17 (F := Ideal) x0 x2) = y
  have el : ∀ l : Fin 384, lidx_main_v19 (ix2 p k) l = ix2 p l := fun l =>
    funext fun a => Fin.ext (by match a with | ⟨0, _⟩ => rfl | ⟨1, _⟩ => rfl)
  have er : ∀ l : Fin 384, ridx_main_v19 (ix2 p k) l = ix2 l k := fun l =>
    funext fun a => Fin.ext (by match a with | ⟨0, _⟩ => rfl | ⟨1, _⟩ => rfl)
  have eb : idx_main_v20 (idx_main_v21 (ix2 p k)) = ix1 k :=
    funext fun a => Fin.ext (by match a with | ⟨0, _⟩ => rfl)
  rw [eb, Ideal.addf_def]
  congr 1
  exact Finset.sum_congr rfl fun l _ => by rw [el l, er l]

/-- The activated hidden layer, at row p and hidden column k. -/
private theorem v23_at (x0 : (⟨S20000x128, .f32⟩ : BufTy).Contents (Elt Ideal)) (x1 : (⟨S640000x128, .f32⟩ : BufTy).Contents (Elt Ideal)) (x2 : (⟨S2x640000, .i32⟩ : BufTy).Contents (Elt Ideal)) (x3 : (⟨S384x128, .f32⟩ : BufTy).Contents (Elt Ideal)) (x4 : (⟨S128, .f32⟩ : BufTy).Contents (Elt Ideal)) (p : Fin 640000) (k : Fin 128) :
    val_main_v23 (F := Ideal) x0 x1 x2 x3 x4 (ix2 p k)
      = Cert.Spec.silu ((∑ l : Fin 384, Cert.Spec.cat3 x1 (val_main_v10 (F := Ideal) x0 x2) (val_main_v17 (F := Ideal) x0 x2) (ix2 p l) * x3 (ix2 l k)) + x4 (ix1 k)) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, v22_at, silu_host]

theorem edge_eq (x0 : (⟨S20000x128, .f32⟩ : BufTy).Contents (Elt Ideal)) (x1 : (⟨S640000x128, .f32⟩ : BufTy).Contents (Elt Ideal)) (x2 : (⟨S2x640000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v28 (F := Ideal) x0 x1 x2 x3 x4 x5 x6
      = Cert.Spec.mlp (R := 640000) (K := 384) x1 (Cert.Spec.cat3 x1 (val_main_v10 (F := Ideal) x0 x2) (val_main_v17 (F := Ideal) x0 x2)) x3 x4 x5 x6 := by
  funext i
  obtain ⟨p, q, rfl⟩ : ∃ (p : Fin 640000) (q : Fin 128), i = ix2 p q := ⟨i 0, i 1, eq_ix2 i⟩
  rw [Cert.Spec.mlp_apply]
  unfold Cert.Spec.mlpAt
  rw [val_main_v28_apply, val_main_v27_apply, val_main_v24_apply, val_main_v26_apply, val_main_v25_apply]
  have el : ∀ k : Fin 128, lidx_main_v24 (ix2 p q) k = ix2 p k := fun k =>
    funext fun a => Fin.ext (by match a with | ⟨0, _⟩ => rfl | ⟨1, _⟩ => rfl)
  have er : ∀ k : Fin 128, ridx_main_v24 (ix2 p q) k = ix2 k q := fun k =>
    funext fun a => Fin.ext (by match a with | ⟨0, _⟩ => rfl | ⟨1, _⟩ => rfl)
  have eb : idx_main_v25 (idx_main_v26 (ix2 p q)) = ix1 q :=
    funext fun a => Fin.ext (by match a with | ⟨0, _⟩ => rfl)
  rw [eb, Ideal.addf_def, Ideal.addf_def]
  congr 2
  exact Finset.sum_congr rfl fun k _ => by rw [el k, er k, v23_at]

/-- Two matrices of 128 columns joined along the columns. -/
private theorem concat2_eq (a b : (⟨S20000x128, .f32⟩ : BufTy).Contents (Elt Ideal)) :
    concatenate S20000x256 1 [⟨S20000x128, a⟩, ⟨S20000x128, b⟩]
      concatenates_S20000x128_S20000x128_S20000x256_d1 = Cert.Spec.cat2 a b := by
  funext j
  have h2 : (j 1).val / 128 < 2 := by have := idx2_lt1 j; omega
  exact concatenate_ofFn_apply (t := S20000x256) (s₁ := S20000x128) (1 : Fin 2) (N := 2) ![a, b]
    concatenates_S20000x128_S20000x128_S20000x256_d1 rfl 128 rfl j ⟨(j 1).val / 128, h2⟩ rfl
    (ix2 (j 0) ⟨(j 1).val % 128, Nat.mod_lt _ (by norm_num)⟩) rfl
    (fun b hb => by
      match b with
      | ⟨0, _⟩ => rfl
      | ⟨1, _⟩ => exact absurd rfl hb)

/-- The joined node input is the node features beside the aggregated edge features. -/
private theorem v41_eq (x0 : (⟨S20000x128, .f32⟩ : BufTy).Contents (Elt Ideal)) (x1 : (⟨S640000x128, .f32⟩ : BufTy).Contents (Elt Ideal)) (x2 : (⟨S2x640000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v41 (F := Ideal) x0 x1 x2 x3 x4 x5 x6 = Cert.Spec.cat2 x0 (val_main_v40 (F := Ideal) x0 x1 x2 x3 x4 x5 x6) := by
  unfold val_main_v41
  generalize val_main_v40 (F := Ideal) x0 x1 x2 x3 x4 x5 x6 = g
  exact concat2_eq x0 g

/-- The node update's first layer before the activation, at row p and hidden column k. -/
private theorem v45_at (x0 : (⟨S20000x128, .f32⟩ : BufTy).Contents (Elt Ideal)) (x1 : (⟨S640000x128, .f32⟩ : BufTy).Contents (Elt Ideal)) (x2 : (⟨S2x640000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (p : Fin 20000) (k : Fin 128) :
    val_main_v45 (F := Ideal) x0 x1 x2 x3 x4 x5 x6 x7 x8 (ix2 p k)
      = (∑ l : Fin 256, Cert.Spec.cat2 x0 (val_main_v40 (F := Ideal) x0 x1 x2 x3 x4 x5 x6) (ix2 p l) * x7 (ix2 l k)) + x8 (ix1 k) := by
  rw [val_main_v45_apply, val_main_v42_apply, val_main_v44_apply, val_main_v43_apply, v41_eq]
  generalize Cert.Spec.cat2 x0 (val_main_v40 (F := Ideal) x0 x1 x2 x3 x4 x5 x6) = y
  have el : ∀ l : Fin 256, lidx_main_v42 (ix2 p k) l = ix2 p l := fun l =>
    funext fun a => Fin.ext (by match a with | ⟨0, _⟩ => rfl | ⟨1, _⟩ => rfl)
  have er : ∀ l : Fin 256, ridx_main_v42 (ix2 p k) l = ix2 l k := fun l =>
    funext fun a => Fin.ext (by match a with | ⟨0, _⟩ => rfl | ⟨1, _⟩ => rfl)
  have eb : idx_main_v43 (idx_main_v44 (ix2 p k)) = ix1 k :=
    funext fun a => Fin.ext (by match a with | ⟨0, _⟩ => rfl)
  rw [eb, Ideal.addf_def]
  congr 1
  exact Finset.sum_congr rfl fun l _ => by rw [el l, er l]

/-- The node update's activated hidden layer, at row p and hidden column k. -/
private theorem v46_at (x0 : (⟨S20000x128, .f32⟩ : BufTy).Contents (Elt Ideal)) (x1 : (⟨S640000x128, .f32⟩ : BufTy).Contents (Elt Ideal)) (x2 : (⟨S2x640000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (p : Fin 20000) (k : Fin 128) :
    val_main_v46 (F := Ideal) x0 x1 x2 x3 x4 x5 x6 x7 x8 (ix2 p k)
      = Cert.Spec.silu ((∑ l : Fin 256, Cert.Spec.cat2 x0 (val_main_v40 (F := Ideal) x0 x1 x2 x3 x4 x5 x6) (ix2 p l) * x7 (ix2 l k)) + x8 (ix1 k)) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply, v45_at, silu_host]

theorem node_eq (x0 : (⟨S20000x128, .f32⟩ : BufTy).Contents (Elt Ideal)) (x1 : (⟨S640000x128, .f32⟩ : BufTy).Contents (Elt Ideal)) (x2 : (⟨S2x640000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v51 (F := Ideal) x0 x1 x2 x3 x4 x5 x6 x7 x8 x9 x10
      = Cert.Spec.mlp (R := 20000) (K := 256) x0 (Cert.Spec.cat2 x0 (val_main_v40 (F := Ideal) x0 x1 x2 x3 x4 x5 x6)) x7 x8 x9 x10 := by
  funext i
  obtain ⟨p, q, rfl⟩ : ∃ (p : Fin 20000) (q : Fin 128), i = ix2 p q := ⟨i 0, i 1, eq_ix2 i⟩
  rw [Cert.Spec.mlp_apply]
  unfold Cert.Spec.mlpAt
  rw [val_main_v51_apply, val_main_v50_apply, val_main_v47_apply, val_main_v49_apply, val_main_v48_apply]
  have el : ∀ k : Fin 128, lidx_main_v47 (ix2 p q) k = ix2 p k := fun k =>
    funext fun a => Fin.ext (by match a with | ⟨0, _⟩ => rfl | ⟨1, _⟩ => rfl)
  have er : ∀ k : Fin 128, ridx_main_v47 (ix2 p q) k = ix2 k q := fun k =>
    funext fun a => Fin.ext (by match a with | ⟨0, _⟩ => rfl | ⟨1, _⟩ => rfl)
  have eb : idx_main_v48 (idx_main_v49 (ix2 p q)) = ix1 q :=
    funext fun a => Fin.ext (by match a with | ⟨0, _⟩ => rfl)
  rw [eb, Ideal.addf_def, Ideal.addf_def]
  congr 2
  exact Finset.sum_congr rfl fun k _ => by rw [el k, er k, v46_at]

end Cert.ReferenceIdeal.RefValue

end
-- ==== Proof.KernelValue.lean ====
/-
  The two result arrays of the kernel's @main as functions of its arguments.  Region 0 leaves the perceptron of the edge
  features beside the two gathered endpoint rows in the edge result; the stretch after it aggregates that array by
  destination; region 1 leaves the perceptron of the node features beside the aggregate in the node result.  Stage by
  stage these are the reference's own terms, so each result is stated as the reference's stage of the launch contents.
-/
import proofs.«415002_j30107720745191_1_alg».proof.Proof.Gen.KernelIdeal.Frame
import proofs.«415002_j30107720745191_1_alg».proof.Proof.BlocksEdge
import proofs.«415002_j30107720745191_1_alg».proof.Proof.BlocksNode
import proofs.«415002_j30107720745191_1_alg».proof.Proof.EdgeEntry
import proofs.«415002_j30107720745191_1_alg».proof.Proof.EdgeKept
import proofs.«415002_j30107720745191_1_alg».proof.Proof.RefValue
import Idealize.ShloMosaic.Lib.StableHlo.Run

set_option maxRecDepth 16384

noncomputable section

namespace Cert.KernelIdeal.KernelValue

open Cert.KernelIdeal Cert.KernelIdeal.Gen Cert.KernelIdeal.EdgeEntry Idealize.ShloMosaic Idealize.ShloMosaic.TcCoe Idealize.SL.Sem
open Cert.ReferenceIdeal.Read (val_main_v3 val_main_v10 val_main_v17 val_main_v28 val_main_v40 val_main_v51)

variable (m : (ℓ : Loc nD τ sig) → Buf (Elt Ideal) ℓ) (ρ : Dev nD → PrngReg)

/-- No operation of the stretch between the regions writes the buffer. -/
theorem hostOps1_keeps (c : Dev nD) (b : Ref sig .tc)
    (hb : ∀ op ∈ (hostOps1 : List (HloOp τ sig (Elt Ideal))), Proc.devRef .tc b ∉ op.writes) :
    W5 m ρ c (Proc.devRef .tc b) = W4 m ρ c (Proc.devRef .tc b) :=
  StableHlo.after_of_forall_not_mem (b := Proc.devRef .tc b) _ _ hb

/-! ## Region 0's result -/

/-- After region 0 the edge result holds the reference's updated edge features of the launch contents. -/
theorem W4_main_v6 (c : Dev nD) (hr : InRange m c) :
    W4 m ρ c (Proc.devRef .tc main_v6)
      = val_main_v28 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (W4_arr m ρ c 7).trans ?_
  rw [Cert.KernelIdeal.EdgeBlocks.final0 (V3 m ρ) c, V3_main_arg1, V3_main_arg3, V3_main_arg4, V3_main_arg5, V3_main_arg6,
    V3_main_v4 m ρ c hr, V3_main_v5 m ρ c hr]
  exact (Cert.ReferenceIdeal.RefValue.edge_eq _ _ _ _ _ _ _).symm

/-- The destination row of the index array is still what region 0 found. -/
theorem W4_main_v3 (c : Dev nD) :
    W4 m ρ c (Proc.devRef .tc main_v3) = val_main_v3 (F := Ideal) (m ((c : Thread nD τ).loc main_arg2)) :=
  (W4_of_ne m ρ c main_v3 (by decide)).trans (V3_main_v3 m ρ c)

/-! ## Region 1's entry -/

theorem V5_main_arg0 (c : Dev nD) : V5 m ρ c main_arg0 = m ((c : Thread nD τ).loc main_arg0) :=
  (((W6_arr m ρ c 0).trans (((dat1 (V5 m ρ) c).arrAt_in 0 rfl _).trans (A_eq1 (V5 m ρ) c 0))).symm).trans (W6_main_arg0 m ρ c)
theorem V5_main_arg7 (c : Dev nD) : V5 m ρ c main_arg7 = m ((c : Thread nD τ).loc main_arg7) :=
  (((W6_arr m ρ c 2).trans (((dat1 (V5 m ρ) c).arrAt_in 2 rfl _).trans (A_eq1 (V5 m ρ) c 2))).symm).trans (W6_main_arg7 m ρ c)
theorem V5_main_arg8 (c : Dev nD) : V5 m ρ c main_arg8 = m ((c : Thread nD τ).loc main_arg8) :=
  (((W6_arr m ρ c 3).trans (((dat1 (V5 m ρ) c).arrAt_in 3 rfl _).trans (A_eq1 (V5 m ρ) c 3))).symm).trans (W6_main_arg8 m ρ c)
theorem V5_main_arg9 (c : Dev nD) : V5 m ρ c main_arg9 = m ((c : Thread nD τ).loc main_arg9) :=
  (((W6_arr m ρ c 4).trans (((dat1 (V5 m ρ) c).arrAt_in 4 rfl _).trans (A_eq1 (V5 m ρ) c 4))).symm).trans (W6_main_arg9 m ρ c)
theorem V5_main_arg10 (c : Dev nD) : V5 m ρ c main_arg10 = m ((c : Thread nD τ).loc main_arg10) :=
  (((W6_arr m ρ c 5).trans (((dat1 (V5 m ρ) c).arrAt_in 5 rfl _).trans (A_eq1 (V5 m ρ) c 5))).symm).trans (W6_main_arg10 m ρ c)

/-- The stretch between the regions computes the mean aggregation of the edge result by destination. -/
theorem V5_main_v18 (c : Dev nD) :
    V5 m ρ c main_v18
      = Cert.ReferenceIdeal.RefValue.agg (F := Ideal) (m ((c : Thread nD τ).loc main_arg2)) (W4 m ρ c (Proc.devRef .tc main_v6)) := by
  show StableHlo.after hostOps1 (W4 m ρ c) (Proc.devRef .tc main_v18) = _
  after_results
  rw [W4_main_v3]
  rfl

/-! ## The results -/

theorem result_edge (c : Dev nD) (hr : InRange m c) :
    W6 m ρ c (Proc.devRef .tc main_v6)
      = val_main_v28 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (W6_of_ne m ρ c main_v6 (by decide)).trans ?_
  refine (hostOps1_keeps m ρ c main_v6 (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))).trans ?_
  exact W4_main_v6 m ρ c hr

theorem result_node (c : Dev nD) (hr : InRange m c) :
    W6 m ρ c (Proc.devRef .tc main_v19)
      = val_main_v51 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) := by
  refine (W6_arr m ρ c 6).trans ?_
  rw [Cert.KernelIdeal.NodeBlocks.final1 (V5 m ρ) c, V5_main_arg0, V5_main_arg7, V5_main_arg8, V5_main_arg9, V5_main_arg10,
    V5_main_v18, W4_main_v6 m ρ c hr, ← Cert.ReferenceIdeal.RefValue.v40_eq]
  exact (Cert.ReferenceIdeal.RefValue.node_eq _ _ _ _ _ _ _ _ _ _ _).symm

end Cert.KernelIdeal.KernelValue

end
-- ==== Proof.PreDecode.lean ====
/-
  Reading the precondition: besides finiteness of the float inputs it says that every entry of the 2 × 640000 index
  array is a row number of the node table in the numpy sense, -20000 ≤ v < 20000 as a signed 32-bit word.
-/
import proofs.«415002_j30107720745191_1_alg».proof.Defs
import proofs.«415002_j30107720745191_1_alg».proof.Proof.Gen.Pre_finite_inputs
import Idealize.ShloMosaic.Lib.ReduceAll
import Idealize.ShloMosaic.Lib.StableHlo.Predicate

noncomputable section

namespace Cert.PreDecode

open Idealize.ShloMosaic Cert.Pre_finite_inputs

variable [Cert.Pre_finite_inputs.Facts]

/-- The rank-0 shape has exactly one index. -/
private instance subsingleton_scalar_idx : Subsingleton S_.Idx := ⟨fun a b => funext fun d => d.elim0⟩

/-- The two bounds as signed integers: the word 4294947296 is -20000. -/
private theorem toInt_lo : (4294947296#32 : BitVec 32).toInt = -20000 := by decide
private theorem toInt_hi : (20000#32 : BitVec 32).toInt = 20000 := by decide

/-- The tail of the predicate: the conjunction so far, and the reduction of the lower comparison `lo`, and the
    reduction of the upper comparison. If it is one, `lo` is one everywhere and every word is below 20000. -/
private theorem range_of_part3 {F : FTy → Type} [FloatOps F] (a2 : IVec S2x640000 32) (p : IVec S_ 1)
    (lo : IVec S2x640000 1) (h : fn_part3 (F := F) a2 p lo = fun _ => 1#1) (i : S2x640000.Idx) :
    lo i = 1#1 ∧ (a2 i).toInt < 20000 := by
  have h0 := congrFun h (fun d => d.elim0)
  unfold fn_part3 at h0
  dsimp only at h0
  -- the outer conjunction, then the inner one: only the two reductions over the index array are kept
  obtain ⟨h1, hhi⟩ := IntOp.andi_eq_one.1 h0
  obtain ⟨-, hlo⟩ := IntOp.andi_eq_one.1 h1
  -- a reduction by `and` over all axes that is one had a one at every index
  have elo := Host.reduce_andi_all _ _ _ _ _ hlo i
  have ehi := Host.reduce_andi_all _ _ _ _ _ hhi i
  -- at index i the comparison is that of the word with the broadcast constant, which reads as the constant
  have e : IntOp.cmpi .slt (a2 i) (20000#32) = 1#1 := ehi
  rw [IntOp.cmpi_slt, toInt_hi] at e
  exact ⟨elo, e⟩

/-- If the printed predicate is all ones, every index word lies in [-20000, 20000). -/
theorem range_of_fn {F : FTy → Type} [FloatOps F] (a0 : FVec F S20000x128 .f32) (a1 : FVec F S640000x128 .f32) (a2 : IVec S2x640000 32)
    (a3 : FVec F S384x128 .f32) (a4 : FVec F S128 .f32) (a5 : FVec F S128x128 .f32) (a6 : FVec F S128 .f32)
    (a7 : FVec F S256x128 .f32) (a8 : FVec F S128 .f32) (a9 : FVec F S128x128 .f32) (a10 : FVec F S128 .f32)
    (h : fn (F := F) a0 a1 a2 a3 a4 a5 a6 a7 a8 a9 a10 = fun _ => 1#1) :
    ∀ i : S2x640000.Idx, -20000 ≤ (a2 i).toInt ∧ (a2 i).toInt < 20000 := by
  intro i
  -- the chain of parts ends in the tail applied to the index array, the conjunction so far and the lower comparison
  have h' : fn_part3 (F := F) a2 _
      (cmpi .sge a2 (broadcastInDim S2x640000 ![] Facts.bcast_S_S2x640000 (constantI S_ 32 4294947296#32))) =
      fun _ => 1#1 := h
  obtain ⟨hlo, hhi⟩ := range_of_part3 a2 _ _ h' i
  have e : IntOp.cmpi .sge (a2 i) (4294947296#32) = 1#1 := hlo
  rw [IntOp.cmpi_sge, toInt_lo] at e
  exact ⟨e, hhi⟩

end Cert.PreDecode

end
-- ==== Proof.lean ====
/-
  The certificate of one message-passing layer: gather the two endpoint rows of every edge from the node table, update
  the edge features by a two-layer perceptron with residual over (edge, source, destination) features, average the
  updated edges into their destination nodes (scatter-add over a clamped in-degree), and update the node features by a
  second perceptron with residual over (node, aggregate) features.

  The kernel computes the two perceptrons in two gridded regions (row blocks of 2560 edges and of 2000 nodes, the weights
  resident) and leaves the gather and the aggregation to the host program; its gather answers an out-of-range index with
  a fill value where the reference's does not, so the claim is stated where every index word is a row number in the numpy
  sense, -20000 ≤ v < 20000 (there the reference's own indexing is in range).  On the extended reals both programs then
  compute, index by index, out[r, q] = res[r, q] + (Σ_k silu(Σ_l x[r, l] · W1[l, k] + b1[k]) · W2[k, q] + b2[q]) for the
  edges and again for the nodes: a change of float format is the identity, a product into a zero accumulator is the plain
  sum, the logistic function is 1 / (1 + e^(-z)) on both sides, and the aggregation between the two is one and the same
  function of the edge result.  No law beyond re-indexing of finite sums is used, so finiteness of the inputs is not.
-/
import proofs.«415002_j30107720745191_1_alg».proof.Defs
import proofs.«415002_j30107720745191_1_alg».proof.Proof.Gen.Kernel
import proofs.«415002_j30107720745191_1_alg».proof.Proof.Gen.Kernel.Frame
import proofs.«415002_j30107720745191_1_alg».proof.Proof.Gen.KernelIdeal
import proofs.«415002_j30107720745191_1_alg».proof.Proof.Gen.KernelIdeal.Frame
import proofs.«415002_j30107720745191_1_alg».proof.Proof.Gen.ReferenceIdeal
import proofs.«415002_j30107720745191_1_alg».proof.Proof.Gen.ReferenceIdeal.Run
import proofs.«415002_j30107720745191_1_alg».proof.Proof.Gen.ReferenceIdeal.Read
import proofs.«415002_j30107720745191_1_alg».proof.Proof.Gen.Pre_finite_inputs
import proofs.«415002_j30107720745191_1_alg».proof.Proof.KernelRun
import proofs.«415002_j30107720745191_1_alg».proof.Proof.KernelValue
import proofs.«415002_j30107720745191_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Under the precondition every index word is a row number in the numpy sense. -/
theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.EdgeEntry.InRange m c :=
  Cert.PreDecode.range_of_fn _ _ _ _ _ _ _ _ _ _ _ (hpre c)

/-- Both programs end with the reference's two stages of the (agreeing) launch contents: the kernel by its regions'
    values read through the host stretches, the reference by its own run. -/
theorem algebraic : Cert.algebraic_KernelIdeal_ReferenceIdeal := by
  intro m ρ m' ρ' hpre hagree
  refine ⟨fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.result_node m ρ c (inRange_of_pre m hpre c)),
        (h c).2.1.trans (Cert.KernelIdeal.KernelValue.result_edge m ρ c (inRange_of_pre m hpre c)), (h c).2.2⟩)
      (Cert.KernelIdeal.RunValue.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10⟩ := hagree c
      rw [Cert.ReferenceIdeal.Read.val_main_v51_eq, h0, h1, h2, h3, h4, h5, h6, h7, h8, h9, h10]
    · obtain ⟨h0, h1, h2, h3, h4, h5, h6, -⟩ := hagree c
      rw [Cert.ReferenceIdeal.Read.val_main_v28_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
